-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x64 : Shape := ⟨2, ![500000, 64]⟩
abbrev S128x320 : Shape := ⟨2, ![128, 320]⟩
abbrev S128 : Shape := ⟨1, ![128]⟩
abbrev S128x128 : Shape := ⟨2, ![128, 128]⟩
abbrev S384x128 : Shape := ⟨2, ![384, 128]⟩
abbrev S384 : Shape := ⟨1, ![384]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x256 : S_.BroadcastsInDim S128x256 (![] : Fin 0 → Fin S128x256.rank)
  reducesTo_S128x256_S_d0_1 : S128x256.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part3 {F : FTy → Type} [FloatOps F] (main_arg1 : IVec S2x500000 32) (main_arg12 : FVec F S128x256 .f32) (main_arg13 : FVec F S128 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x500000 32 := broadcastInDim S2x500000 ![] bcast_S_S2x500000 main_c_24
  let main_v65 : IVec S2x500000 1 := cmpi .sge main_arg1 main_v64
  let main_c_25 : IVec S_ 1 := constantI S_ 1 1#1
  let main_v66 : IVec S_ 1 := (fun x v => Host.reduce IntOp.andi x v reducesTo_S2x500000_S_d0_1 h_S_) main_v65 main_c_25
  let main_v67 : IVec S_ 1 := andi main_v63 main_v66
  main_v67

def fn_part2 {F : FTy → Type} [FloatOps F] (main_arg1 : IVec S2x500000 32) (main_arg8 : FVec F S384x128 .f32) (main_arg9 : FVec F S384 .f32) (main_arg10 : FVec F S384x128 .f32) (main_arg11 : FVec F S384 .f32) (main_arg12 : FVec F S128x256 .f32) (main_arg13 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg11
  let main_cst_18 : FVec F S_ .f32 := constant S_ .f32 0x7F800000#32
  let main_v50 : FVec F S384 .f32 := broadcastInDim S384 ![] bcast_S_S384 main_cst_18
  fn_part3 (F := F) main_arg1 main_arg12 main_arg13 main_v48 main_v49 main_v50

def fn_part1 {F : FTy → Type} [FloatOps F] (main_arg1 : IVec S2x500000 32) (main_arg5 : FVec F S128 .f32) (main_arg6 : FVec F S128x128 .f32) (main_arg7 : FVec F S128 .f32) (main_arg8 : FVec F S384x128 .f32) (main_arg9 : FVec F S384 .f32) (main_arg10 : FVec F S384x128 .f32) (main_arg11 : FVec F S384 .f32) (main_arg12 : FVec F S128x256 .f32) (main_arg13 : FVec F S128 .f32) (main_v13 : IVec S_ 1) (main_v16 : IVec S128x320 1) : IVec S_ 1 :=
  let main_c_5 : IVec S_ 1 := constantI S_ 1 1#1
  let main_v17 : IVec S_ 1 := (fun x v => Host.reduce IntOp.andi x v reducesTo_S128x320_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x128 .f32) (main_arg1 : IVec S2x500000 32) (main_arg2 : FVec F S500000x64 .f32) (main_arg3 : FVec F S100000x128 .f32) (main_arg4 : FVec F S128x320 .f32) (main_arg5 : FVec F S128 .f32) (main_arg6 : FVec F S128x128 .f32) (main_arg7 : FVec F S128 .f32) (main_arg8 : FVec F S384x128 .f32) (main_arg9 : FVec F S384 .f32) (main_arg10 : FVec F S384x128 .f32) (main_arg11 : FVec F S384 .f32) (main_arg12 : FVec F S128x256 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x320 .f32 := Host.absf main_arg4
  let main_cst_4 : FVec F S_ .f32 := constant S_ .f32 0x7F800000#32
  let main_v15 : FVec F S128x320 .f32 := broadcastInDim S128x320 ![] bcast_S_S128x320 main_cst_4
  let main_v16 : IVec S128x320 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x128 : Shape := ⟨2, ![100000, 128]⟩
abbrev S2x500000 : Shape := ⟨2, ![2, 500000]⟩
abbrev S500000x64 : Shape := ⟨2, ![500000, 64]⟩
abbrev S128x320 : Shape := ⟨2, ![128, 320]⟩
abbrev S128 : Shape := ⟨1, ![128]⟩
abbrev S128x128 : Shape := ⟨2, ![128, 128]⟩
abbrev S384x128 : Shape := ⟨2, ![384, 128]⟩
abbrev S384 : Shape := ⟨1, ![384]⟩
abbrev S128x256 : Shape := ⟨2, ![128, 256]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S320x128 : Shape := ⟨2, ![320, 128]⟩
abbrev S64x128 : Shape := ⟨2, ![64, 128]⟩
abbrev S128x384 : Shape := ⟨2, ![128, 384]⟩
abbrev S256x128 : Shape := ⟨2, ![256, 128]⟩
abbrev S4000x128 : Shape := ⟨2, ![4000, 128]⟩
abbrev S4000x64 : Shape := ⟨2, ![4000, 64]⟩
abbrev S1x128 : Shape := ⟨2, ![1, 128]⟩
abbrev S_ : Shape := ⟨0, ![]⟩
abbrev S5000x128 : Shape := ⟨2, ![5000, 128]⟩

abbrev nBuf : Space → Nat
  | .hbm => 43
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x64, .f32⟩
  | .hbm, ⟨3, _⟩ => ⟨S100000x128, .f32⟩
  | .hbm, ⟨4, _⟩ => ⟨S128x320, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S384, .f32⟩
  | .hbm, ⟨10, _⟩ => ⟨S384x128, .f32⟩
  | .hbm, ⟨11, _⟩ => ⟨S384, .f32⟩
  | .hbm, ⟨12, _⟩ => ⟨S128x256, .f32⟩
  | .hbm, ⟨13, _⟩ => ⟨S128, .f32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S500000x1, .i32⟩
  | .hbm, ⟨21, _⟩ => ⟨S500000x128, .f32⟩
  | .hbm, ⟨22, _⟩ => ⟨S320x128, .f32⟩
  | .hbm, ⟨23, _⟩ => ⟨S128x128, .f32⟩
  | .hbm, ⟨24, _⟩ => ⟨S128x128, .f32⟩
  | .hbm, ⟨25, _⟩ => ⟨S64x128, .f32⟩
  | .hbm, ⟨26, _⟩ => ⟨S128x128, .f32⟩
  | .hbm, ⟨27, _⟩ => ⟨S128x384, .f32⟩
  | .hbm, ⟨28, _⟩ => ⟨S128x384, .f32⟩
  | .hbm, ⟨29, _⟩ => ⟨S256x128, .f32⟩
  | .hbm, ⟨30, _⟩ => ⟨S128x128, .f32⟩
  | .hbm, ⟨31, _⟩ => ⟨S128x128, .f32⟩
  | .hbm, ⟨32, _⟩ => ⟨S500000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S100000x128, .f32⟩
  | .hbm, ⟨42, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x384, .f32⟩
  | .local _ .vmem, ⟨13, _⟩ => ⟨S384, .f32⟩
  | .local _ .vmem, ⟨14, _⟩ => ⟨S128x384, .f32⟩
  | .local _ .vmem, ⟨15, _⟩ => ⟨S384, .f32⟩
  | .local _ .vmem, ⟨16, _⟩ => ⟨S4000x128, .f32⟩
  | .local _ .vmem, ⟨17, _⟩ => ⟨S4000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_v0 : Ref sig .tc := ⟨.hbm, 18, rfl⟩
abbrev main_v4 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S500000_S500000x1_0 : S500000.BroadcastsInDim S500000x1 (![0] : Fin 1 → Fin S500000x1.rank)
  transposes_S128x320_S320x128_1_0 : S128x320.Transposes [1, 0] S320x128
  slices_S320x128_S128x128_0_0 : S320x128.Slices ![0, 0] S128x128
  slices_S320x128_S128x128_128_0 : S320x128.Slices ![128, 0] S128x128
  slices_S320x128_S64x128_256_0 : S320x128.Slices ![256, 0] S64x128
  transposes_S128x128_S128x128_1_0 : S128x128.Transposes [1, 0] S128x128
  transposes_S384x128_S128x384_1_0 : S384x128.Transposes [1, 0] S128x384
  transposes_S128x256_S256x128_1_0 : S128x256.Transposes [1, 0] S256x128
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  slices_S128x384_o0_0_S128x128 : S128x384.Slices ![0, 0] S128x128
  slices_S128x384_o0_128_S128x128 : S128x384.Slices ![0, 128] S128x128
  slices_S128x384_o0_256_S128x128 : S128x384.Slices ![0, 256] S128x128
  slices_S384_o0_S128 : S384.Slices ![0] S128
  slices_S384_o128_S128 : S384.Slices ![128] S128
  slices_S384_o256_S128 : S384.Slices ![256] S128
  bcast_S_S500000 : S_.BroadcastsInDim S500000 (![] : Fin 0 → Fin S500000.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S100000x128_S500000x1_S500000x128_1_0_n_n_0_1_1128_wf : GatherDims.WF S100000x128 S500000x1 S500000x128 [1] [0] [] [0] [] 1 ![1, 128]
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  scatter_S100000x128_S500000x1_S500000x128_1_0_0_1_wf : ScatterDims.WF S100000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S500000x64.size a
  hwx0_2 : ∀ i : grid0.Coords, EltTy.bits .f32 = 32 ∨ (Rect.block (s := S500000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .f32 = 32 ∨ (Rect.block (s := S128x384) S128x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x384.size a ≤ S128x384.size a
  hwx0_11 : ∀ i : grid0.Coords, EltTy.bits .f32 = 32 ∨ (Rect.block (s := S128x384) S128x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384.size a ≤ S384.size a
  hwx0_12 : ∀ i : grid0.Coords, EltTy.bits .f32 = 32 ∨ (Rect.block (s := S384) S384.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S500000x128.size a
  hwx0_13 : ∀ i : grid0.Coords, EltTy.bits .f32 = 32 ∨ (Rect.block (s := S500000x128) S4000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S128x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S4000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x64 : Shape := ⟨2, ![500000, 64]⟩
abbrev S128x320 : Shape := ⟨2, ![128, 320]⟩
abbrev S128 : Shape := ⟨1, ![128]⟩
abbrev S128x128 : Shape := ⟨2, ![128, 128]⟩
abbrev S384x128 : Shape := ⟨2, ![384, 128]⟩
abbrev S384 : Shape := ⟨1, ![384]⟩
abbrev S128x256 : Shape := ⟨2, ![128, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x320 : Shape := ⟨2, ![500000, 320]⟩
abbrev S320x128 : Shape := ⟨2, ![320, 128]⟩
abbrev S1x128 : Shape := ⟨2, ![1, 128]⟩
abbrev S128x384 : Shape := ⟨2, ![128, 384]⟩
abbrev S500000x384 : Shape := ⟨2, ![500000, 384]⟩
abbrev S1x384 : Shape := ⟨2, ![1, 384]⟩
abbrev S100000x256 : Shape := ⟨2, ![100000, 256]⟩
abbrev S256x128 : Shape := ⟨2, ![256, 128]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x64, .f32⟩
  | .hbm, ⟨3, _⟩ => ⟨S100000x128, .f32⟩
  | .hbm, ⟨4, _⟩ => ⟨S128x320, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S384, .f32⟩
  | .hbm, ⟨10, _⟩ => ⟨S384x128, .f32⟩
  | .hbm, ⟨11, _⟩ => ⟨S384, .f32⟩
  | .hbm, ⟨12, _⟩ => ⟨S128x256, .f32⟩
  | .hbm, ⟨13, _⟩ => ⟨S128, .f32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S500000x320, .f32⟩
  | .hbm, ⟨37, _⟩ => ⟨S320x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S_, .f32⟩
  | .hbm, ⟨43, _⟩ => ⟨S500000x128, .f32⟩
  | .hbm, ⟨44, _⟩ => ⟨S500000x128, .f32⟩
  | .hbm, ⟨45, _⟩ => ⟨S128x128, .f32⟩
  | .hbm, ⟨46, _⟩ => ⟨S500000x128, .f32⟩
  | .hbm, ⟨47, _⟩ => ⟨S1x128, .f32⟩
  | .hbm, ⟨48, _⟩ => ⟨S500000x128, .f32⟩
  | .hbm, ⟨49, _⟩ => ⟨S500000x128, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x128, .f32⟩
  | .hbm, ⟨59, _⟩ => ⟨S128x384, .f32⟩
  | .hbm, ⟨60, _⟩ => ⟨S500000x384, .f32⟩
  | .hbm, ⟨61, _⟩ => ⟨S1x384, .f32⟩
  | .hbm, ⟨62, _⟩ => ⟨S500000x384, .f32⟩
  | .hbm, ⟨63, _⟩ => ⟨S500000x384, .f32⟩
  | .hbm, ⟨64, _⟩ => ⟨S128x384, .f32⟩
  | .hbm, ⟨65, _⟩ => ⟨S500000x384, .f32⟩
  | .hbm, ⟨66, _⟩ => ⟨S1x384, .f32⟩
  | .hbm, ⟨67, _⟩ => ⟨S500000x384, .f32⟩
  | .hbm, ⟨68, _⟩ => ⟨S500000x384, .f32⟩
  | .hbm, ⟨69, _⟩ => ⟨S500000x128, .f32⟩
  | .hbm, ⟨70, _⟩ => ⟨S500000x128, .f32⟩
  | .hbm, ⟨71, _⟩ => ⟨S500000x128, .f32⟩
  | .hbm, ⟨72, _⟩ => ⟨S500000x128, .f32⟩
  | .hbm, ⟨73, _⟩ => ⟨S500000x128, .f32⟩
  | .hbm, ⟨74, _⟩ => ⟨S500000x128, .f32⟩
  | .hbm, ⟨75, _⟩ => ⟨S500000x128, .f32⟩
  | .hbm, ⟨76, _⟩ => ⟨S500000x128, .f32⟩
  | .hbm, ⟨77, _⟩ => ⟨S500000x128, .f32⟩
  | .hbm, ⟨78, _⟩ => ⟨S_, .f32⟩
  | .hbm, ⟨79, _⟩ => ⟨S500000x128, .f32⟩
  | .hbm, ⟨80, _⟩ => ⟨S500000x128, .f32⟩
  | .hbm, ⟨81, _⟩ => ⟨S_, .f32⟩
  | .hbm, ⟨82, _⟩ => ⟨S500000x128, .f32⟩
  | .hbm, ⟨83, _⟩ => ⟨S500000x128, .f32⟩
  | .hbm, ⟨84, _⟩ => ⟨S500000x128, .f32⟩
  | .hbm, ⟨85, _⟩ => ⟨S500000x128, .f32⟩
  | .hbm, ⟨86, _⟩ => ⟨S500000x128, .f32⟩
  | .hbm, ⟨87, _⟩ => ⟨S_, .f32⟩
  | .hbm, ⟨88, _⟩ => ⟨S500000x128, .f32⟩
  | .hbm, ⟨89, _⟩ => ⟨S500000x128, .f32⟩
  | .hbm, ⟨90, _⟩ => ⟨S_, .f32⟩
  | .hbm, ⟨91, _⟩ => ⟨S500000x128, .f32⟩
  | .hbm, ⟨92, _⟩ => ⟨S500000x128, .f32⟩
  | .hbm, ⟨93, _⟩ => ⟨S500000x128, .f32⟩
  | .hbm, ⟨94, _⟩ => ⟨S500000x128, .f32⟩
  | .hbm, ⟨95, _⟩ => ⟨S500000x128, .f32⟩
  | .hbm, ⟨96, _⟩ => ⟨S_, .f32⟩
  | .hbm, ⟨97, _⟩ => ⟨S500000x128, .f32⟩
  | .hbm, ⟨98, _⟩ => ⟨S500000x128, .f32⟩
  | .hbm, ⟨99, _⟩ => ⟨S500000x128, .f32⟩
  | .hbm, ⟨100, _⟩ => ⟨S500000x128, .f32⟩
  | .hbm, ⟨101, _⟩ => ⟨S500000x128, .f32⟩
  | .hbm, ⟨102, _⟩ => ⟨S_, .i32⟩
  | .hbm, ⟨103, _⟩ => ⟨S500000, .i32⟩
  | .hbm, ⟨104, _⟩ => ⟨S500000, .i1⟩
  | .hbm, ⟨105, _⟩ => ⟨S_, .i32⟩
  | .hbm, ⟨106, _⟩ => ⟨S500000, .i32⟩
  | .hbm, ⟨107, _⟩ => ⟨S500000, .i32⟩
  | .hbm, ⟨108, _⟩ => ⟨S500000, .i32⟩
  | .hbm, ⟨109, _⟩ => ⟨S500000x1, .i32⟩
  | .hbm, ⟨110, _⟩ => ⟨S100000x128, .f32⟩
  | .hbm, ⟨111, _⟩ => ⟨S100000x256, .f32⟩
  | .hbm, ⟨112, _⟩ => ⟨S256x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_3 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_cst_8 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_10 : Ref sig .tc := ⟨.hbm, 102, rfl⟩
abbrev main_v76 : Ref sig .tc := ⟨.hbm, 103, rfl⟩
abbrev main_v77 : Ref sig .tc := ⟨.hbm, 104, rfl⟩
abbrev main_c_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x320_d1 : Shape.Concatenates [S500000x128, S500000x128, S500000x64] S500000x320 1
  transposes_S128x320_S320x128_1_0 : S128x320.Transposes [1, 0] S320x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S128x128_S128x128_1_0 : S128x128.Transposes [1, 0] S128x128
  transposes_S384x128_S128x384_1_0 : S384x128.Transposes [1, 0] S128x384
  bcast_S384_S1x384_1 : S384.BroadcastsInDim S1x384 (![1] : Fin 1 → Fin S1x384.rank)
  bcast_S1x384_S500000x384_0_1 : S1x384.BroadcastsInDim S500000x384 (![0, 1] : Fin 2 → Fin S500000x384.rank)
  slices_S500000x384_S500000x128_0_0 : S500000x384.Slices ![0, 0] S500000x128
  slices_S500000x384_S500000x128_0_128 : S500000x384.Slices ![0, 128] S500000x128
  slices_S500000x384_S500000x128_0_256 : S500000x384.Slices ![0, 256] S500000x128
  concatenates_S100000x128_S100000x128_S100000x256_d1 : Shape.Concatenates [S100000x128, S100000x128] S100000x256 1
  transposes_S128x256_S256x128_1_0 : S128x256.Transposes [1, 0] S256x128
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x320_S320x128_S500000x128_1_0_0_1_n_n_wf : DotDims.WF S500000x320 S320x128 S500000x128 [1] [0] [0] [1] [] []
  dot_S500000x128_S128x128_S500000x128_1_0_0_1_n_n_wf : DotDims.WF S500000x128 S128x128 S500000x128 [1] [0] [0] [1] [] []
  dot_S500000x128_S128x384_S500000x384_1_0_0_1_n_n_wf : DotDims.WF S500000x128 S128x384 S500000x384 [1] [0] [0] [1] [] []
  scatter_S100000x128_S500000x1_S500000x128_1_0_0_1_wf : ScatterDims.WF S100000x128 S500000x1 S500000x128 [1] [0] [0] 1
  dot_S100000x256_S256x128_S100000x128_1_0_0_1_n_n_wf : DotDims.WF S100000x256 S256x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x320_S320x128_S500000x128_1_0_0_1_n_n : DotDims S500000x320 S320x128 S500000x128 where
  lhsContracting := [1]
  rhsContracting := [0]
  lhsNonContracting := [0]
  rhsNonContracting := [1]
  lhsBatch := []
  rhsBatch := []
  wf := dot_S500000x320_S320x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x384_S500000x384_1_0_0_1_n_n : DotDims S500000x128 S128x384 S500000x384 where
  lhsContracting := [1]
  rhsContracting := [0]
  lhsNonContracting := [0]
  rhsNonContracting := [1]
  lhsBatch := []
  rhsBatch := []
  wf := dot_S500000x128_S128x384_S500000x384_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.PreIdx.lean ====
import proofs.«403503_j74491912781913_3_alg».proof.Defs
import proofs.«403503_j74491912781913_3_alg».proof.Proof.Gen.Pre_finite_inputs
import Idealize.ShloMosaic.Lib.ReduceAll
import Idealize.ShloMosaic.Lib.StableHlo.Predicate
import Idealize.ShloMosaic.Lib.ValueIdx

noncomputable section

namespace Cert.Tgn.PreIdx

open Idealize.ShloMosaic Idealize.ShloMosaic.ValueIdx

/-- The rank-0 shape has a single index. -/
private instance subsingleton_S_Idx : Subsingleton Cert.Pre_finite_inputs.S_.Idx :=
  ⟨fun a b => funext fun d => d.elim0⟩

/-- The precondition's last conjunct, decoded: every entry of the edge-index array is a non-negative word (read signed). -/
theorem nonneg_of_fn [Cert.Pre_finite_inputs.Facts] {F : FTy → Type} [FloatOps F]
    (a0 : FVec F Cert.Pre_finite_inputs.S100000x128 .f32) (a1 : IVec Cert.Pre_finite_inputs.S2x500000 32)
    (a2 : FVec F Cert.Pre_finite_inputs.S500000x64 .f32) (a3 : FVec F Cert.Pre_finite_inputs.S100000x128 .f32)
    (a4 : FVec F Cert.Pre_finite_inputs.S128x320 .f32) (a5 : FVec F Cert.Pre_finite_inputs.S128 .f32)
    (a6 : FVec F Cert.Pre_finite_inputs.S128x128 .f32) (a7 : FVec F Cert.Pre_finite_inputs.S128 .f32)
    (a8 : FVec F Cert.Pre_finite_inputs.S384x128 .f32) (a9 : FVec F Cert.Pre_finite_inputs.S384 .f32)
    (a10 : FVec F Cert.Pre_finite_inputs.S384x128 .f32) (a11 : FVec F Cert.Pre_finite_inputs.S384 .f32)
    (a12 : FVec F Cert.Pre_finite_inputs.S128x256 .f32) (a13 : FVec F Cert.Pre_finite_inputs.S128 .f32)
    (h : Cert.Pre_finite_inputs.fn (F := F) a0 a1 a2 a3 a4 a5 a6 a7 a8 a9 a10 a11 a12 a13 = fun _ => 1#1)
    (i : Cert.Pre_finite_inputs.S2x500000.Idx) : 0 ≤ (a1 i).toInt := by
  have h0 := congrFun h ValueIdx.ix0
  unfold Cert.Pre_finite_inputs.fn Cert.Pre_finite_inputs.fn_part1 Cert.Pre_finite_inputs.fn_part2
    Cert.Pre_finite_inputs.fn_part3 at h0
  dsimp only at h0
  -- the result word is the `and` of the float conjuncts with the `jnp.all` over the index test: keep the right half
  have h1 := (IntOp.andi_eq_one.1 h0).2
  -- a reduce by `and` over all axes that came out 1 met a 1 at every index
  have h2 := Host.reduce_andi_all _ _ _ _ _ h1 i
  -- at index `i` the test is the signed word compare of `a1 i` with the broadcast constant 0
  have h3 : (0#32 : BitVec 32).toInt ≤ (a1 i).toInt := IntOp.cmpi_sge.1 h2
  simpa using h3

end Cert.Tgn.PreIdx

end
-- ==== Proof.Spec.lean ====
/-
  The mathematics both programs compute, stated once over the extended reals and row by row.

  A temporal-graph-network step over E edges and N nodes. For an edge with gathered memory rows
  `a` (source) and `c` (target) and edge features `f`:
    hidden   h1_j  = max (Σₖ aₖ·W1a[k,j] + Σₖ cₖ·W1c[k,j] + Σₖ fₖ·W1f[k,j] + b1_j, 0)
    message  m_j   = Σₖ h1ₖ·W2[k,j] + b2_j
    gates    gi_g,j = Σₖ mₖ·Wi[k, 128g+j] + bi_{128g+j},   gh_g,j = Σₖ aₖ·Wh[k, 128g+j] + bh_{128g+j}   (g = 0,1,2)
             r = σ(gi₀ + gh₀),  z = σ(gi₁ + gh₁),  n = tanh (gi₂ + r·gh₂)
    new row  (1 − z)·n + z·a
  and a node's embedding from its updated memory row `u` and its feature row `v`:
    Σₖ uₖ·Weu[k,j] + Σₖ vₖ·Wev[k,j] + be_j.
  Every weight is taken contraction-index first (the transposed layout both programs multiply by).
  The first layer's weight arrives in three row pieces and the embedding's in two; that a contraction over
  the concatenated 320 (256) columns is the sum of the contractions over the pieces is `sum_three` / `sum_two`:
  it needs only that addition of extended reals is commutative and associative, so no finiteness is used.
-/
import Idealize.ShloMosaic.PureOps.Ideal
import Idealize.ShloMosaic.Lib.ValueIdx
import Mathlib.Algebra.BigOperators.Fin

noncomputable section

open scoped BigOperators

namespace Cert.Tgn

open Idealize.ShloMosaic Idealize.ShloMosaic.ValueIdx

/-- The word of the float `1.0` and of `0.0`, read at the exact instance. -/
abbrev one : EReal := Ideal.ofBits .f32 0x3F800000#32
abbrev zero : EReal := Ideal.ofBits .f32 0x00000000#32

/-- Column `128·g + j` of a 384-wide gate array, for the three gates. -/
abbrev col0 (j : Fin 128) : Fin 384 := ⟨j.val, by omega⟩
abbrev col1 (j : Fin 128) : Fin 384 := ⟨128 + j.val, by omega⟩
abbrev col2 (j : Fin 128) : Fin 384 := ⟨256 + j.val, by omega⟩

section Row

variable (a c : Fin 128 → EReal) (f : Fin 64 → EReal)
  (w1a w1c : Fin 128 → Fin 128 → EReal) (w1f : Fin 64 → Fin 128 → EReal) (b1 : Fin 128 → EReal)
  (w2 : Fin 128 → Fin 128 → EReal) (b2 : Fin 128 → EReal)
  (wi : Fin 128 → Fin 384 → EReal) (bi : Fin 384 → EReal)
  (wh : Fin 128 → Fin 384 → EReal) (bh : Fin 384 → EReal)

/-- The first layer after its rectifier. -/
def hidden (j : Fin 128) : EReal :=
  max ((((∑ k, a k * w1a k j) + (∑ k, c k * w1c k j)) + (∑ k, f k * w1f k j)) + b1 j) zero

/-- The message. -/
def message (j : Fin 128) : EReal :=
  (∑ k, hidden a c f w1a w1c w1f b1 k * w2 k j) + b2 j

/-- A gate's input part at column `q` of the 384. -/
def gateIn (q : Fin 384) : EReal :=
  (∑ k, message a c f w1a w1c w1f b1 w2 b2 k * wi k q) + bi q

/-- A gate's hidden-state part at column `q` of the 384. -/
def gateHid (q : Fin 384) : EReal := (∑ k, a k * wh k q) + bh q

def resetGate (j : Fin 128) : EReal :=
  Ideal.logistic (gateIn a c f w1a w1c w1f b1 w2 b2 wi bi (col0 j) + gateHid a wh bh (col0 j))

def updateGate (j : Fin 128) : EReal :=
  Ideal.logistic (gateIn a c f w1a w1c w1f b1 w2 b2 wi bi (col1 j) + gateHid a wh bh (col1 j))

def candidate (j : Fin 128) : EReal :=
  Ideal.tanh (gateIn a c f w1a w1c w1f b1 w2 b2 wi bi (col2 j)
    + resetGate a c f w1a w1c w1f b1 w2 b2 wi bi wh bh j * gateHid a wh bh (col2 j))

/-- The edge's new memory row. -/
def newRow (j : Fin 128) : EReal :=
  (one - updateGate a c f w1a w1c w1f b1 w2 b2 wi bi wh bh j) * candidate a c f w1a w1c w1f b1 w2 b2 wi bi wh bh j
    + updateGate a c f w1a w1c w1f b1 w2 b2 wi bi wh bh j * a j

end Row

/-- A node's embedding row. -/
def embedRow (u v : Fin 128 → EReal) (weu wev : Fin 128 → Fin 128 → EReal) (be : Fin 128 → EReal) (j : Fin 128) : EReal :=
  ((∑ k, u k * weu k j) + (∑ k, v k * wev k j)) + be j

/-! ## The same, over arrays of `R` rows (a block of an array, or the array) -/

/-- Row `p` of an `R × n` array. -/
abbrev rowOf {R n : Nat} (x : (⟨2, ![R, n]⟩ : Shape).Idx → EReal) (p : Fin R) : Fin n → EReal := fun k => x (ix2 p k)
/-- A matrix by its two coordinates. -/
abbrev mat {m n : Nat} (x : (⟨2, ![m, n]⟩ : Shape).Idx → EReal) : Fin m → Fin n → EReal := fun k j => x (ix2 k j)
/-- A vector by its coordinate. -/
abbrev vec {n : Nat} (x : (⟨1, ![n]⟩ : Shape).Idx → EReal) : Fin n → EReal := fun k => x (ix1 k)

/-- The new memory rows of `R` edges, at row `p` and column `j`. -/
def newRows {R : Nat} (mr mc : (⟨2, ![R, 128]⟩ : Shape).Idx → EReal) (ef : (⟨2, ![R, 64]⟩ : Shape).Idx → EReal)
    (w1a w1c : (⟨2, ![128, 128]⟩ : Shape).Idx → EReal) (w1f : (⟨2, ![64, 128]⟩ : Shape).Idx → EReal)
    (b1 : (⟨1, ![128]⟩ : Shape).Idx → EReal) (w2 : (⟨2, ![128, 128]⟩ : Shape).Idx → EReal) (b2 : (⟨1, ![128]⟩ : Shape).Idx → EReal)
    (wi : (⟨2, ![128, 384]⟩ : Shape).Idx → EReal) (bi : (⟨1, ![384]⟩ : Shape).Idx → EReal)
    (wh : (⟨2, ![128, 384]⟩ : Shape).Idx → EReal) (bh : (⟨1, ![384]⟩ : Shape).Idx → EReal)
    (p : Fin R) (j : Fin 128) : EReal :=
  newRow (rowOf mr p) (rowOf mc p) (rowOf ef p) (mat w1a) (mat w1c) (mat w1f) (vec b1) (mat w2) (vec b2)
    (mat wi) (vec bi) (mat wh) (vec bh) j

/-- The embedding rows of `R` nodes, at row `p` and column `j`. -/
def embedRows {R : Nat} (um nf : (⟨2, ![R, 128]⟩ : Shape).Idx → EReal)
    (weu wev : (⟨2, ![128, 128]⟩ : Shape).Idx → EReal) (be : (⟨1, ![128]⟩ : Shape).Idx → EReal)
    (p : Fin R) (j : Fin 128) : EReal :=
  embedRow (rowOf um p) (rowOf nf p) (mat weu) (mat wev) (vec be) j

/-! ## A contraction over concatenated columns is the sum of the contractions over the pieces -/

theorem sum_two {m n : Nat} (g : Fin (m + n) → EReal) :
    (∑ k, g k) = (∑ k : Fin m, g (Fin.castAdd n k)) + (∑ k : Fin n, g (Fin.natAdd m k)) :=
  Fin.sum_univ_add g

theorem sum_three {l m n : Nat} (g : Fin (l + m + n) → EReal) :
    (∑ k, g k) = ((∑ k : Fin l, g (Fin.castAdd n (Fin.castAdd m k))) + (∑ k : Fin m, g (Fin.castAdd n (Fin.natAdd l k))))
      + (∑ k : Fin n, g (Fin.natAdd (l + m) k)) := by
  rw [Fin.sum_univ_add, Fin.sum_univ_add]

end Cert.Tgn

end
-- ==== Proof.EdgePay.lean ====
import proofs.«403503_j74491912781913_3_alg».proof.Proof.Gen.KernelIdeal.Frame
import proofs.«403503_j74491912781913_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Tgn.EdgePay

open Idealize.ShloMosaic Idealize.ShloMosaic.ValueIdx Cert.KernelIdeal Cert.KernelIdeal.Gen

/-! ## The two contractions: rows of 128 and rows of 64 against a weight taken contraction index first -/

theorem lhs128_0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
theorem rhs128_0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
theorem rhs128_1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000×128 block times a 128×128 weight into the zero accumulator, at row `p` and column `q`: the plain sum. -/
theorem mm128_apply (l : FVec Ideal S4000x128 .bf16) (r : FVec Ideal S128x128 .bf16) (p : Fin 4000) (q : Fin 128) :
    matmul (F := Ideal) dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs64_0 (i : S4000x128.Idx) (c : dot_S4000x64_S64x128_S4000x128_1_0_0_1_n_n.contr.Idx) :
    (dot_S4000x64_S64x128_S4000x128_1_0_0_1_n_n.lhsIdx i c 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs64_1 (i : S4000x128.Idx) (c : dot_S4000x64_S64x128_S4000x128_1_0_0_1_n_n.contr.Idx) :
    (dot_S4000x64_S64x128_S4000x128_1_0_0_1_n_n.lhsIdx i c 1).val = (c ⟨0, by decide⟩).val :=
  dot_S4000x64_S64x128_S4000x128_1_0_0_1_n_n.lhsIdx_val_of_single rfl i c
theorem rhs64_0 (i : S4000x128.Idx) (c : dot_S4000x64_S64x128_S4000x128_1_0_0_1_n_n.contr.Idx) :
    (dot_S4000x64_S64x128_S4000x128_1_0_0_1_n_n.rhsIdx i c 0).val = (c ⟨0, by decide⟩).val :=
  dot_S4000x64_S64x128_S4000x128_1_0_0_1_n_n.rhsIdx_val_of_single rfl i c
theorem rhs64_1 (i : S4000x128.Idx) (c : dot_S4000x64_S64x128_S4000x128_1_0_0_1_n_n.contr.Idx) :
    (dot_S4000x64_S64x128_S4000x128_1_0_0_1_n_n.rhsIdx i c 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- A 4000×64 block times a 64×128 weight into the zero accumulator, at row `p` and column `q`: the plain sum. -/
theorem mm64_apply (l : FVec Ideal S4000x64 .bf16) (r : FVec Ideal S64x128 .bf16) (p : Fin 4000) (q : Fin 128) :
    matmul (F := Ideal) dot_S4000x64_S64x128_S4000x128_1_0_0_1_n_n none l r (constant (F := Ideal) S4000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## Layout forms -/

/-- A 128-vector as one row, repeated over the 4000 rows, reads the vector at the column. -/
theorem bias_apply (v : FVec Ideal S128 .f32) (h1 : S128.ShapeCasts S1x128) (h2 : S1x128.Broadcasts S4000x128) (p : Fin 4000) (q : Fin 128) :
    broadcastTo S4000x128 (shapeCast S1x128 v h1) h2 (ix2 p q) = v (ix1 q) :=
  (broadcastTo_1b_ab_apply (shapeCast S1x128 v h1) h2 p q).trans (shapeCast_a_1a_apply v h1 0 q)

/-- The three 128-column pieces of a 128×384 weight. -/
theorem sliceM0_apply (X : FVec Ideal S128x384 .f32) (h : S128x384.Slices ![0, 0] S128x128) (k j : Fin 128) :
    extractStridedSlice S128x128 ![0, 0] X h (ix2 k j) = X (ix2 k (col0 j)) :=
  slice2_axis1_apply 0 X h k j (col0 j) (Nat.zero_add _).symm
theorem sliceM1_apply (X : FVec Ideal S128x384 .f32) (h : S128x384.Slices ![0, 128] S128x128) (k j : Fin 128) :
    extractStridedSlice S128x128 ![0, 128] X h (ix2 k j) = X (ix2 k (col1 j)) :=
  slice2_axis1_apply 128 X h k j (col1 j) rfl
theorem sliceM2_apply (X : FVec Ideal S128x384 .f32) (h : S128x384.Slices ![0, 256] S128x128) (k j : Fin 128) :
    extractStridedSlice S128x128 ![0, 256] X h (ix2 k j) = X (ix2 k (col2 j)) :=
  slice2_axis1_apply 256 X h k j (col2 j) rfl

/-- The three 128-long pieces of a 384-vector. -/
theorem sliceV0_apply (v : FVec Ideal S384 .f32) (h : S384.Slices ![0] S128) (j : Fin 128) :
    extractStridedSlice S128 ![0] v h (ix1 j) = v (ix1 (col0 j)) :=
  extractStridedSlice_apply _ _ _ _ _ (fun ax => by
    match ax with
    | ⟨0, _⟩ => exact (Nat.zero_add _).symm)
theorem sliceV1_apply (v : FVec Ideal S384 .f32) (h : S384.Slices ![128] S128) (j : Fin 128) :
    extractStridedSlice S128 ![128] v h (ix1 j) = v (ix1 (col1 j)) :=
  extractStridedSlice_apply _ _ _ _ _ (fun ax => by
    match ax with
    | ⟨0, _⟩ => rfl)
theorem sliceV2_apply (v : FVec Ideal S384 .f32) (h : S384.Slices ![256] S128) (j : Fin 128) :
    extractStridedSlice S128 ![256] v h (ix1 j) = v (ix1 (col2 j)) :=
  extractStridedSlice_apply _ _ _ _ _ (fun ax => by
    match ax with
    | ⟨0, _⟩ => rfl)

/-! ## The two transcendental operations, read at an index -/

theorem tanh_at {s : Shape} {φ : FTy} (x : FVec Ideal s φ) (i : s.Idx) : tanh x i = Ideal.tanh (x i) := rfl
theorem logistic_at {s : Shape} {φ : FTy} (x : FVec Ideal s φ) (i : s.Idx) : logistic x i = Ideal.logistic (x i) := rfl

/-- The origin of a whole rank-2 rectangle, and of a rank-1 one, is zero on every axis. -/
theorem origin2_zero : (![0, 0] : Fin 2 → Nat) = fun _ => 0 := funext fun a => by fin_cases a <;> rfl
theorem origin1_zero : (![0] : Fin 1 → Nat) = fun _ => 0 := funext fun a => by fin_cases a; rfl

/-! ## The payloads at an index -/

/-- The source-memory block as loaded. -/
theorem pay2_apply (v0 : Vec Ideal S4000x128 .f32) (i : S4000x128.Idx) : k0_pay2 (F := Ideal) v0 i = v0 i := by
  unfold k0_pay2
  rw [shapeCast_self]

/-- The same in the narrower format: the same extended reals. -/
theorem pay3_apply (v0 : Vec Ideal S4000x128 .f32) (i : S4000x128.Idx) : k0_pay3 (F := Ideal) v0 i = v0 i := by
  unfold k0_pay3
  simp only [truncf_apply, pay2_apply]

/-- The message of row `p`, at column `j`. -/
theorem pay4_apply (v0 v2 : Vec Ideal S4000x128 .f32) (v4 : Vec Ideal S4000x64 .f32) (v8 v11 : Vec Ideal S128x128 .f32)
    (v14 : Vec Ideal S64x128 .f32) (v22 : Vec Ideal S128 .f32) (v29 : Vec Ideal S128x128 .f32) (v33 : Vec Ideal S128 .f32)
    (p : Fin 4000) (j : Fin 128) :
    k0_pay4 (F := Ideal) v0 v2 v4 v8 v11 v14 v22 v29 v33 (ix2 p j)
      = message (rowOf v0 p) (rowOf v2 p) (rowOf v4 p) (mat v8) (mat v11) (mat v14) (vec v22) (mat v29) (vec v33) j := by
  unfold k0_pay4
  simp only [truncf_apply, addf_apply, maximumf_apply, broadcast_apply, mm128_apply, mm64_apply, bias_apply, shapeCast_self,
    pay3_apply, Ideal.ofBits_def, message, hidden, rowOf, mat, vec, zero]

/-- The third column piece of the hidden-gate weight. -/
theorem pay7_apply (v40 : Vec Ideal S128x384 .f32) (k j : Fin 128) : k0_pay7 (F := Ideal) v40 (ix2 k j) = v40 (ix2 k (col2 j)) := by
  unfold k0_pay7 k0_pay6
  simp only [truncf_apply, sliceM2_apply, shapeCast_self]

/-- The third piece of the hidden-gate bias. -/
theorem pay8_apply (v43 : Vec Ideal S384 .f32) (j : Fin 128) : k0_pay8 (F := Ideal) v43 (ix1 j) = v43 (ix1 (col2 j)) := by
  unfold k0_pay8
  simp only [sliceV2_apply]

/-- The reset gate, over whatever the two left operands are. -/
theorem pay9_apply (v5 v37 : FVec Ideal S4000x128 .bf16) (v38 v40 : Vec Ideal S128x384 .f32) (v42 v43 : Vec Ideal S384 .f32)
    (p : Fin 4000) (q : Fin 128) :
    k0_pay9 (F := Ideal) v5 v37 v38 v40 v42 v43 (ix2 p q)
      = Ideal.logistic (((∑ k : Fin 128, v37 (ix2 p k) * v38 (ix2 k (col0 q))) + v42 (ix1 (col0 q)))
          + ((∑ k : Fin 128, v5 (ix2 p k) * v40 (ix2 k (col0 q))) + v43 (ix1 (col0 q)))) := by
  unfold k0_pay9 k0_pay5 k0_pay6
  simp only [logistic_at, truncf_apply, addf_apply, mm128_apply, bias_apply, shapeCast_self, sliceM0_apply, sliceV0_apply,
    Ideal.logistic_def]

/-- The update gate, over whatever the two left operands are. -/
theorem pay10_apply (v5 v37 : FVec Ideal S4000x128 .bf16) (v38 v40 : Vec Ideal S128x384 .f32) (v42 v43 : Vec Ideal S384 .f32)
    (p : Fin 4000) (q : Fin 128) :
    k0_pay10 (F := Ideal) v5 v37 v38 v40 v42 v43 (ix2 p q)
      = Ideal.logistic (((∑ k : Fin 128, v37 (ix2 p k) * v38 (ix2 k (col1 q))) + v42 (ix1 (col1 q)))
          + ((∑ k : Fin 128, v5 (ix2 p k) * v40 (ix2 k (col1 q))) + v43 (ix1 (col1 q)))) := by
  unfold k0_pay10 k0_pay5 k0_pay6
  simp only [logistic_at, truncf_apply, addf_apply, mm128_apply, bias_apply, shapeCast_self, sliceM1_apply, sliceV1_apply,
    Ideal.logistic_def]

/-- The candidate's input part. -/
theorem pay11_apply (v37 : FVec Ideal S4000x128 .bf16) (v38 : Vec Ideal S128x384 .f32) (v42 : Vec Ideal S384 .f32)
    (p : Fin 4000) (q : Fin 128) :
    k0_pay11 (F := Ideal) v37 v38 v42 (ix2 p q)
      = (∑ k : Fin 128, v37 (ix2 p k) * v38 (ix2 k (col2 q))) + v42 (ix1 (col2 q)) := by
  unfold k0_pay11 k0_pay5
  simp only [truncf_apply, addf_apply, mm128_apply, bias_apply, shapeCast_self, sliceM2_apply, sliceV2_apply]

/-- The stored value, over whatever its operands are. -/
theorem pay1_apply (v1 : FVec Ideal S4000x128 .f32) (v5 : FVec Ideal S4000x128 .bf16) (v55 : FVec Ideal S128x128 .bf16)
    (v61 : FVec Ideal S128 .f32) (v71 v81 v85 : FVec Ideal S4000x128 .f32) (p : Fin 4000) (q : Fin 128) :
    k0_pay1 (F := Ideal) v1 v5 v55 v61 v71 v81 v85 (constant (F := Ideal) S4000x128 .f32 0x00000000#32) (ix2 p q)
      = (one - v81 (ix2 p q)) * Ideal.tanh (v85 (ix2 p q) + v71 (ix2 p q) * ((∑ k : Fin 128, v5 (ix2 p k) * v55 (ix2 k q)) + v61 (ix1 q)))
          + v81 (ix2 p q) * v1 (ix2 p q) := by
  unfold k0_pay1
  simp only [tanh_at, addf_apply, mulf_apply, subf_apply, broadcast_apply, mm128_apply, bias_apply, Ideal.ofBits_def,
    Ideal.tanh_def, one]

/-- What the edge kernel's body leaves in its output block, at row `p` and column `q`, is the new memory row of edge `p`
    of the block, computed from the blocks of the gathered memories and edge features and the (whole) weights. -/
theorem out_apply (x0 x1 : Vec Ideal S4000x128 .f32) (x2 : Vec Ideal S4000x64 .f32) (x3 x4 : Vec Ideal S128x128 .f32)
    (x5 : Vec Ideal S64x128 .f32) (x6 : Vec Ideal S128 .f32) (x7 : Vec Ideal S128x128 .f32) (x8 : Vec Ideal S128 .f32)
    (x9 : Vec Ideal S128x384 .f32) (x10 : Vec Ideal S384 .f32) (x11 : Vec Ideal S128x384 .f32) (x12 : Vec Ideal S384 .f32)
    (p : Fin 4000) (q : Fin 128) :
    out0_13 (F := Ideal) x0 x1 x2 x3 x4 x5 x6 x7 x8 x9 x10 x11 x12 (ix2 p q)
      = Cert.Tgn.newRows (R := 4000) x0 x1 x2 x3 x4 x5 x6 x7 x8 x9 x10 x11 x12 p q := by
  unfold out0_13
  rw [View.canon_unit_zero origin2_zero]
  simp only [View.ld_unit_zero (S := S4000x128) origin2_zero, View.ld_unit_zero (S := S4000x64) origin2_zero, View.ld_unit_zero (S := S128x128) origin2_zero,
    View.ld_unit_zero (S := S64x128) origin2_zero, View.ld_unit_zero (S := S128x384) origin2_zero, View.ld_unit_zero (S := S128) origin1_zero,
    View.ld_unit_zero (S := S384) origin1_zero]
  simp only [pay1_apply, pay2_apply, pay3_apply, pay7_apply, pay8_apply, pay9_apply, pay10_apply, pay11_apply, pay4_apply,
    newRows, newRow, candidate, updateGate, resetGate, gateIn, gateHid, rowOf, mat, vec]

end Cert.Tgn.EdgePay

end
-- ==== Proof.EmbedPay.lean ====
import proofs.«403503_j74491912781913_3_alg».proof.Proof.Gen.KernelIdeal.Frame
import proofs.«403503_j74491912781913_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Tgn.EmbedPay

open Idealize.ShloMosaic Idealize.ShloMosaic.ValueIdx Cert.KernelIdeal Cert.KernelIdeal.Gen

/-! ## The origin of a whole-block rectangle is zero on every axis -/

theorem origin2 : (![0, 0] : Fin 2 → Nat) = fun _ => 0 := funext fun a => by fin_cases a <;> rfl
theorem origin1 : (![0] : Fin 1 → Nat) = fun _ => 0 := funext fun a => by fin_cases a <;> rfl

/-! ## The product of a 5000×128 block by a 128×128 matrix, read at a row and a column

The dimension numbers contract the left operand's axis 1 with the right operand's axis 0: at the result's index
`(p, q)` and contraction coordinate `k` the left operand is read at `(p, k)` and the right one at `(k, q)`. -/

theorem lhs_axis0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_axis0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_axis1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into a zero accumulator the product at `(p, q)` is the plain sum over the contraction coordinate. -/
theorem matmul_at (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias, a vector of 128, viewed 1×128 and repeated over the 5000 rows, read at a row and a column -/

theorem bias_at (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans
    (shapeCast_a_1a_apply b shapeCasts_S128_S1x128 (0 : Fin 1) q)

/-! ## The kernel's payload at a row and a column -/

theorem pay_at (v0 v2 : Vec Ideal S5000x128 .f32) (v5 v8 : Vec Ideal S128x128 .f32) (v14 : Vec Ideal S128 .f32)
    (p : Fin 5000) (q : Fin 128) :
    k1_pay1 (F := Ideal) v0 v2 v5 v8 v14 (ix2 p q)
      = ((∑ k : Fin 128, v0 (ix2 p k) * v5 (ix2 k q)) + (∑ k : Fin 128, v2 (ix2 p k) * v8 (ix2 k q))) + v14 (ix1 q) := by
  unfold k1_pay1
  simp only [shapeCast_self]
  refine (addf_apply _ _ (ix2 p q)).trans ?_
  refine congrArg₂ (· + ·) ((addf_apply _ _ (ix2 p q)).trans (congrArg₂ (· + ·) ?_ ?_)) (bias_at v14 p q)
  · exact matmul_at _ _ p q
  · exact matmul_at _ _ p q

/-- What the embedding kernel's body leaves in its output block, at row `p` and column `q`, is the embedding of node `p`
    of the block, from the blocks of the updated memory and the node features and the (whole) weights. -/
theorem out_apply (x0 x1 : Vec Ideal S5000x128 .f32) (x2 x3 : Vec Ideal S128x128 .f32) (x4 : Vec Ideal S128 .f32)
    (p : Fin 5000) (q : Fin 128) :
    out1_5 (F := Ideal) x0 x1 x2 x3 x4 (ix2 p q) = Cert.Tgn.embedRows (R := 5000) x0 x1 x2 x3 x4 p q := by
  unfold out1_5
  rw [View.canon_unit_zero origin2]
  simp only [View.ld_unit_zero (S := S5000x128) origin2, View.ld_unit_zero (S := S128x128) origin2, View.ld_unit_zero (S := S128) origin1]
  exact pay_at x0 x1 x2 x3 x4 p q

end Cert.Tgn.EmbedPay

end
-- ==== Proof.Terms.lean ====
/-
  The two result arrays as functions of the fourteen argument arrays, written with the host operations the
  kernel's program applies around its two launches: the rows of the memory gathered at the raw source and target
  indices, the weights transposed and cut into their row pieces, the per-edge update of `Spec` over all 500000
  edges, the scatter of the new rows at the (wrapped) source indices, and the embedding of all 100000 nodes.
-/
import proofs.«403503_j74491912781913_3_alg».proof.KernelIdeal
import proofs.«403503_j74491912781913_3_alg».proof.Proof.Spec
import Idealize.ShloMosaic.PureOps.Ideal

noncomputable section

namespace Cert.Tgn

open Idealize.ShloMosaic Cert.KernelIdeal

variable [Cert.KernelIdeal.Facts]
open Cert.KernelIdeal.Facts₀ Cert.KernelIdeal.Facts

/-- Row 0 (the sources) and row 1 (the targets) of the edge list, as flat index vectors. -/
def srcIdx (ei : IVec S2x500000 32) : IVec S500000 32 :=
  shapeCast S500000 (extractStridedSlice S1x500000 ![0, 0] ei slices_S2x500000_S1x500000_0_0) shapeCasts_S1x500000_S500000
def dstIdx (ei : IVec S2x500000 32) : IVec S500000 32 :=
  shapeCast S500000 (extractStridedSlice S1x500000 ![1, 0] ei slices_S2x500000_S1x500000_1_0) shapeCasts_S1x500000_S500000

/-- The memory's rows at an index vector (the start index read signed and clamped into the table). -/
def gatherRows (mem : FVec Ideal S100000x128 .f32) (ix : IVec S500000 32) : FVec Ideal S500000x128 .f32 :=
  Host.gather gather_S100000x128_S500000x1_S500000x128_1_0_n_n_0_1_1128 mem
    (broadcastInDim S500000x1 ![0] bcast_S500000_S500000x1_0 ix)

/-- A negative index counted from the table's end: `i + 100000` where `i < 0`, else `i`. -/
def wrapIdx (ix : IVec S500000 32) : IVec S500000 32 :=
  select (cmpi .slt ix (broadcastInDim S500000 ![] bcast_S_S500000 (constantI S_ 32 0#32)))
    (addi ix (broadcastInDim S500000 ![] bcast_S_S500000 (constantI S_ 32 100000#32))) ix

/-- The first layer's weight transposed, and its three row pieces (source memory, target memory, edge features). -/
def w1t (W1 : FVec Ideal S128x320 .f32) : FVec Ideal S320x128 .f32 := transpose S320x128 [1, 0] W1 transposes_S128x320_S320x128_1_0
def w1a (W1 : FVec Ideal S128x320 .f32) : FVec Ideal S128x128 .f32 := extractStridedSlice S128x128 ![0, 0] (w1t W1) slices_S320x128_S128x128_0_0
def w1c (W1 : FVec Ideal S128x320 .f32) : FVec Ideal S128x128 .f32 := extractStridedSlice S128x128 ![128, 0] (w1t W1) slices_S320x128_S128x128_128_0
def w1f (W1 : FVec Ideal S128x320 .f32) : FVec Ideal S64x128 .f32 := extractStridedSlice S64x128 ![256, 0] (w1t W1) slices_S320x128_S64x128_256_0
/-- The other weights transposed. -/
def w2t (W2 : FVec Ideal S128x128 .f32) : FVec Ideal S128x128 .f32 := transpose S128x128 [1, 0] W2 transposes_S128x128_S128x128_1_0
def wgt (W : FVec Ideal S384x128 .f32) : FVec Ideal S128x384 .f32 := transpose S128x384 [1, 0] W transposes_S384x128_S128x384_1_0
def wet (We : FVec Ideal S128x256 .f32) : FVec Ideal S256x128 .f32 := transpose S256x128 [1, 0] We transposes_S128x256_S256x128_1_0
def weu (We : FVec Ideal S128x256 .f32) : FVec Ideal S128x128 .f32 := extractStridedSlice S128x128 ![0, 0] (wet We) slices_S256x128_S128x128_0_0
def wev (We : FVec Ideal S128x256 .f32) : FVec Ideal S128x128 .f32 := extractStridedSlice S128x128 ![128, 0] (wet We) slices_S256x128_S128x128_128_0

/-- The new memory row of every edge. -/
def newMem (ei : IVec S2x500000 32) (ef : FVec Ideal S500000x64 .f32) (mem : FVec Ideal S100000x128 .f32)
    (W1 : FVec Ideal S128x320 .f32) (b1 : FVec Ideal S128 .f32) (W2 : FVec Ideal S128x128 .f32) (b2 : FVec Ideal S128 .f32)
    (Wih : FVec Ideal S384x128 .f32) (bih : FVec Ideal S384 .f32) (Whh : FVec Ideal S384x128 .f32) (bhh : FVec Ideal S384 .f32) :
    FVec Ideal S500000x128 .f32 :=
  fun i => newRows (R := 500000) (gatherRows mem (srcIdx ei)) (gatherRows mem (dstIdx ei)) ef (w1a W1) (w1c W1) (w1f W1) b1
    (w2t W2) b2 (wgt Wih) bih (wgt Whh) bhh (i 0) (i 1)

/-- The memory with every edge's new row written at the edge's (wrapped) source index. -/
def updMem (ei : IVec S2x500000 32) (ef : FVec Ideal S500000x64 .f32) (mem : FVec Ideal S100000x128 .f32)
    (W1 : FVec Ideal S128x320 .f32) (b1 : FVec Ideal S128 .f32) (W2 : FVec Ideal S128x128 .f32) (b2 : FVec Ideal S128 .f32)
    (Wih : FVec Ideal S384x128 .f32) (bih : FVec Ideal S384 .f32) (Whh : FVec Ideal S384x128 .f32) (bhh : FVec Ideal S384 .f32) :
    FVec Ideal S100000x128 .f32 :=
  Host.scatter scatter_S100000x128_S500000x1_S500000x128_1_0_0_1 (fun _ b => b) mem
    (broadcastInDim S500000x1 ![0] bcast_S500000_S500000x1_0 (wrapIdx (srcIdx ei)))
    (newMem ei ef mem W1 b1 W2 b2 Wih bih Whh bhh)

/-- Every node's embedding from its updated memory row and its feature row. -/
def embedding (nf : FVec Ideal S100000x128 .f32) (ei : IVec S2x500000 32) (ef : FVec Ideal S500000x64 .f32)
    (mem : FVec Ideal S100000x128 .f32)
    (W1 : FVec Ideal S128x320 .f32) (b1 : FVec Ideal S128 .f32) (W2 : FVec Ideal S128x128 .f32) (b2 : FVec Ideal S128 .f32)
    (Wih : FVec Ideal S384x128 .f32) (bih : FVec Ideal S384 .f32) (Whh : FVec Ideal S384x128 .f32) (bhh : FVec Ideal S384 .f32)
    (We : FVec Ideal S128x256 .f32) (be : FVec Ideal S128 .f32) : FVec Ideal S100000x128 .f32 :=
  fun i => embedRows (R := 100000) (updMem ei ef mem W1 b1 W2 b2 Wih bih Whh bhh) nf (weu We) (wev We) be (i 0) (i 1)

end Cert.Tgn

end
-- ==== Proof.KEdge.lean ====
/-
  Region 0 (the edge kernel) read back to its array. The grid has 125 points; point `t` works on rows
  `4000·t … 4000·t + 3999` of the two gathered memories and of the edge features and writes the same rows of the
  output, while the ten weights and biases are whole at every point. A row of the output block depends only on the
  same row of the three input blocks, so block `t` of the array of all new memory rows is what point `t` writes
  back; the 125 blocks tile the 500000 rows, so the array ends holding every edge's new memory row.
-/
import proofs.«403503_j74491912781913_3_alg».proof.Proof.Gen.KernelIdeal.Frame
import proofs.«403503_j74491912781913_3_alg».proof.Proof.Spec
import Idealize.ShloMosaic.PureOps.Ideal
import Idealize.ShloMosaic.Lib.ValueIdx
import Idealize.ShloMosaic.Lib.Pipeline.Value

set_option maxRecDepth 16384

noncomputable section

namespace Cert.Tgn.KEdge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The array of all new memory rows, from the region's entry contents. -/
def G (c : Dev nD) : FVec Ideal S500000x128 .f32 :=
  fun i => Cert.Tgn.newRows (R := 500000) (V c main_v4) (V c main_v5) (V c main_arg2) (V c main_v7) (V c main_v8) (V c main_v9) (V c main_arg5) (V c main_v10) (V c main_arg7) (V c main_v11) (V c main_arg9) (V c main_v12) (V c main_arg11) (i 0) (i 1)

/-- The printed index maps over the grid: the four row-blocked windows sit at block `t` of the rows and block 0 of
    the columns; every weight and bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = t.val ∧ win0_13.index t (1 : Fin 2) = 0 :=
  (by decide +kernel : ∀ t : Fin grid0.N, _)

theorem N_eq : cfg0.N = 125 := N_0

/-- Row `4000·t + p` of the 500000. -/
abbrev row (t : Fin cfg0.N) (p : Fin 4000) : Fin 500000 :=
  ⟨4000 * t.val + p.val, by have h1 := t.isLt; have h2 := N_eq; have h3 := p.isLt; omega⟩

theorem emb0 (t : Fin cfg0.N) (p : Fin 4000) (k : Fin 128) : ((cfg0.win 0).blk t).view.emb (ix2 p k) = ix2 (row t p) k := by
  obtain ⟨e0, e1, -⟩ := idx_facts t
  funext a; apply Fin.ext
  match a with
  | ⟨0, _⟩ => show win0_0.index t (0 : Fin 2) * 4000 + 1 * p.val = 4000 * t.val + p.val; omega
  | ⟨1, _⟩ => show win0_0.index t (1 : Fin 2) * 128 + 1 * k.val = k.val; omega
theorem emb1 (t : Fin cfg0.N) (p : Fin 4000) (k : Fin 128) : ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 4000 + 1 * p.val = 4000 * t.val + p.val; omega
  | ⟨1, _⟩ => show win0_1.index t (1 : Fin 2) * 128 + 1 * k.val = k.val; omega
theorem emb2 (t : Fin cfg0.N) (p : Fin 4000) (k : Fin 64) : ((cfg0.win 2).blk t).view.emb (ix2 p k) = ix2 (row t p) k := by
  obtain ⟨-, -, -, -, e0, e1, -⟩ := idx_facts t
  funext a; apply Fin.ext
  match a with
  | ⟨0, _⟩ => show win0_2.index t (0 : Fin 2) * 4000 + 1 * p.val = 4000 * t.val + p.val; omega
  | ⟨1, _⟩ => show win0_2.index t (1 : Fin 2) * 64 + 1 * k.val = k.val; omega
theorem emb3 (t : Fin cfg0.N) (k : Fin 128) (j : Fin 128) : ((cfg0.win 3).blk t).view.emb (ix2 k j) = ix2 k j := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * j.val = j.val; omega
theorem emb4 (t : Fin cfg0.N) (k : Fin 128) (j : Fin 128) : ((cfg0.win 4).blk t).view.emb (ix2 k j) = ix2 k j := by
  obtain ⟨-, -, -, -, -, -, -, -, e0, e1, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * j.val = j.val; omega
theorem emb5 (t : Fin cfg0.N) (k : Fin 64) (j : Fin 128) : ((cfg0.win 5).blk t).view.emb (ix2 k j) = ix2 k j := by
  obtain ⟨-, -, -, -, -, -, -, -, -, -, e0, e1, -⟩ := idx_facts t
  funext a; apply Fin.ext
  match a with
  | ⟨0, _⟩ => show win0_5.index t (0 : Fin 2) * 64 + 1 * k.val = k.val; omega
  | ⟨1, _⟩ => show win0_5.index t (1 : Fin 2) * 128 + 1 * j.val = j.val; omega
theorem emb6 (t : Fin cfg0.N) (k : Fin 128) : ((cfg0.win 6).blk t).view.emb (ix1 k) = ix1 k := by
  obtain ⟨-, -, -, -, -, -, -, -, -, -, -, -, e0, -⟩ := idx_facts t
  funext a; apply Fin.ext
  match a with
  | ⟨0, _⟩ => show win0_6.index t (0 : Fin 1) * 128 + 1 * k.val = k.val; omega
theorem emb7 (t : Fin cfg0.N) (k : Fin 128) (j : Fin 128) : ((cfg0.win 7).blk t).view.emb (ix2 k j) = ix2 k j := by
  obtain ⟨-, -, -, -, -, -, -, -, -, -, -, -, -, e0, e1, -⟩ := idx_facts t
  funext a; apply Fin.ext
  match a with
  | ⟨0, _⟩ => show win0_7.index t (0 : Fin 2) * 128 + 1 * k.val = k.val; omega
  | ⟨1, _⟩ => show win0_7.index t (1 : Fin 2) * 128 + 1 * j.val = j.val; omega
theorem emb8 (t : Fin cfg0.N) (k : Fin 128) : ((cfg0.win 8).blk t).view.emb (ix1 k) = ix1 k := by
  obtain ⟨-, -, -, -, -, -, -, -, -, -, -, -, -, -, -, e0, -⟩ := idx_facts t
  funext a; apply Fin.ext
  match a with
  | ⟨0, _⟩ => show win0_8.index t (0 : Fin 1) * 128 + 1 * k.val = k.val; omega
theorem emb9 (t : Fin cfg0.N) (k : Fin 128) (j : Fin 384) : ((cfg0.win 9).blk t).view.emb (ix2 k j) = ix2 k j := by
  obtain ⟨-, -, -, -, -, -, -, -, -, -, -, -, -, -, -, -, e0, e1, -⟩ := idx_facts t
  funext a; apply Fin.ext
  match a with
  | ⟨0, _⟩ => show win0_9.index t (0 : Fin 2) * 128 + 1 * k.val = k.val; omega
  | ⟨1, _⟩ => show win0_9.index t (1 : Fin 2) * 384 + 1 * j.val = j.val; omega
theorem emb10 (t : Fin cfg0.N) (k : Fin 384) : ((cfg0.win 10).blk t).view.emb (ix1 k) = ix1 k := by
  obtain ⟨-, -, -, -, -, -, -, -, -, -, -, -, -, -, -, -, -, -, e0, -⟩ := idx_facts t
  funext a; apply Fin.ext
  match a with
  | ⟨0, _⟩ => show win0_10.index t (0 : Fin 1) * 384 + 1 * k.val = k.val; omega
theorem emb11 (t : Fin cfg0.N) (k : Fin 128) (j : Fin 384) : ((cfg0.win 11).blk t).view.emb (ix2 k j) = ix2 k j := by
  obtain ⟨-, -, -, -, -, -, -, -, -, -, -, -, -, -, -, -, -, -, -, e0, e1, -⟩ := idx_facts t
  funext a; apply Fin.ext
  match a with
  | ⟨0, _⟩ => show win0_11.index t (0 : Fin 2) * 128 + 1 * k.val = k.val; omega
  | ⟨1, _⟩ => show win0_11.index t (1 : Fin 2) * 384 + 1 * j.val = j.val; omega
theorem emb12 (t : Fin cfg0.N) (k : Fin 384) : ((cfg0.win 12).blk t).view.emb (ix1 k) = ix1 k := by
  obtain ⟨-, -, -, -, -, -, -, -, -, -, -, -, -, -, -, -, -, -, -, -, -, e0, -⟩ := idx_facts t
  funext a; apply Fin.ext
  match a with
  | ⟨0, _⟩ => show win0_12.index t (0 : Fin 1) * 384 + 1 * k.val = k.val; omega
theorem emb13 (t : Fin cfg0.N) (p : Fin 4000) (k : Fin 128) : ((cfg0.win 13).blk t).view.emb (ix2 p k) = ix2 (row t p) k := by
  obtain ⟨-, -, -, -, -, -, -, -, -, -, -, -, -, -, -, -, -, -, -, -, -, -, e0, e1⟩ := idx_facts t
  funext a; apply Fin.ext
  match a with
  | ⟨0, _⟩ => show win0_13.index t (0 : Fin 2) * 4000 + 1 * p.val = 4000 * t.val + p.val; omega
  | ⟨1, _⟩ => show win0_13.index t (1 : Fin 2) * 128 + 1 * k.val = k.val; omega

/-- An index of the array is in point `t`'s block iff each coordinate is in the block's range on its axis. -/
theorem mem_blk (t : Fin cfg0.N) (i : S500000x128.Idx) :
    i ∈ ((cfg0.win 13).blk t).view.set ↔ ∀ a : Fin 2, win0_13.index t a * S4000x128.size a ≤ (i a).val ∧ (i a).val < win0_13.index t a * S4000x128.size a + S4000x128.size a := by
  show i ∈ ((View.whole main_v16).slice (win0_13.rect t)).set ↔ _
  rw [View.set_slice_whole, Rect.mem_set_unit]
  exact Iff.rfl

/-- The 125 blocks tile the array. -/
theorem cover (i : S500000x128.Idx) : ∃ t : Fin cfg0.N, (cfg0.win 13).flush t = true ∧ i ∈ ((cfg0.win 13).blk t).view.set := by
  have hi0 : (i 0).val < 500000 := (i 0).isLt
  have hi1 : (i 1).val < 128 := (i 1).isLt
  let t : Fin cfg0.N := ⟨(i 0).val / 4000, by rw [N_eq]; omega⟩
  obtain ⟨-, -, -, -, -, -, -, -, -, -, -, -, -, -, -, -, -, -, -, -, -, -, e0, e1⟩ := idx_facts t
  have ht : t.val = (i 0).val / 4000 := rfl
  refine ⟨t, flush0_13 t, ?_⟩
  rw [mem_blk]
  intro a
  match a with
  | ⟨0, _⟩ => show win0_13.index t (0 : Fin 2) * 4000 ≤ (i 0).val ∧ (i 0).val < win0_13.index t (0 : Fin 2) * 4000 + 4000; omega
  | ⟨1, _⟩ => show win0_13.index t (1 : Fin 2) * 128 ≤ (i 1).val ∧ (i 1).val < win0_13.index t (1 : Fin 2) * 128 + 128; omega

section Flushed

-- The body at an index (proved beside the kernel's payload): the output block at row `p`, column `q` is the new
-- memory row of the input blocks' row `p`.
variable (hpay : ∀ (x0 x1 : Vec Ideal S4000x128 .f32) (x2 : Vec Ideal S4000x64 .f32) (x3 x4 : Vec Ideal S128x128 .f32)
    (x5 : Vec Ideal S64x128 .f32) (x6 : Vec Ideal S128 .f32) (x7 : Vec Ideal S128x128 .f32) (x8 : Vec Ideal S128 .f32)
    (x9 : Vec Ideal S128x384 .f32) (x10 : Vec Ideal S384 .f32) (x11 : Vec Ideal S128x384 .f32) (x12 : Vec Ideal S384 .f32)
    (p : Fin 4000) (q : Fin 128),
    out0_13 (F := Ideal) x0 x1 x2 x3 x4 x5 x6 x7 x8 x9 x10 x11 x12 (ix2 p q)
      = Cert.Tgn.newRows (R := 4000) x0 x1 x2 x3 x4 x5 x6 x7 x8 x9 x10 x11 x12 p q)

include hpay

/-- What point `t` writes back is block `t` of the array of all new memory rows. -/
theorem flushed_eq (c : Dev nD) (t : Fin cfg0.N) :
    (dat0 (F := Ideal) V c).flushed 13 t = ((cfg0.win 13).blk t).view.read (Elt Ideal) (G V c) := by
  show (cfg0.win 13).cut (grid0.coords t) ((dat0 V c).after 13 t) = _
  rw [after0_13]
  funext j
  obtain ⟨p, q, rfl⟩ : ∃ (p : Fin 4000) (q : Fin 128), j = ix2 p q := ⟨j 0, j 1, eq_ix2 j⟩
  show out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = G V c (((cfg0.win 13).blk t).view.emb (ix2 p q))
  rw [hpay (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p q, emb13 t p q]
  show Cert.Tgn.newRow _ _ _ _ _ _ _ _ _ _ _ _ _ q = Cert.Tgn.newRow _ _ _ _ _ _ _ _ _ _ _ _ _ q
  have h0 : Cert.Tgn.rowOf (iblk0 V c 0 t) p = Cert.Tgn.rowOf (V c main_v4) (row t p) :=
    funext fun k => show V c main_v4 (((cfg0.win 0).blk t).view.emb (ix2 p k)) = _ by rw [emb0 t p k]
  have h1 : Cert.Tgn.rowOf (iblk0 V c 1 t) p = Cert.Tgn.rowOf (V c main_v5) (row t p) :=
    funext fun k => show V c main_v5 (((cfg0.win 1).blk t).view.emb (ix2 p k)) = _ by rw [emb1 t p k]
  have h2 : Cert.Tgn.rowOf (iblk0 V c 2 t) p = Cert.Tgn.rowOf (V c main_arg2) (row t p) :=
    funext fun k => show V c main_arg2 (((cfg0.win 2).blk t).view.emb (ix2 p k)) = _ by rw [emb2 t p k]
  have h3 : Cert.Tgn.mat (iblk0 V c 3 t) = Cert.Tgn.mat (V c main_v7) :=
    funext fun k => funext fun j => show V c main_v7 (((cfg0.win 3).blk t).view.emb (ix2 k j)) = _ by rw [emb3 t k j]
  have h4 : Cert.Tgn.mat (iblk0 V c 4 t) = Cert.Tgn.mat (V c main_v8) :=
    funext fun k => funext fun j => show V c main_v8 (((cfg0.win 4).blk t).view.emb (ix2 k j)) = _ by rw [emb4 t k j]
  have h5 : Cert.Tgn.mat (iblk0 V c 5 t) = Cert.Tgn.mat (V c main_v9) :=
    funext fun k => funext fun j => show V c main_v9 (((cfg0.win 5).blk t).view.emb (ix2 k j)) = _ by rw [emb5 t k j]
  have h6 : Cert.Tgn.vec (iblk0 V c 6 t) = Cert.Tgn.vec (V c main_arg5) :=
    funext fun k => show V c main_arg5 (((cfg0.win 6).blk t).view.emb (ix1 k)) = _ by rw [emb6 t k]
  have h7 : Cert.Tgn.mat (iblk0 V c 7 t) = Cert.Tgn.mat (V c main_v10) :=
    funext fun k => funext fun j => show V c main_v10 (((cfg0.win 7).blk t).view.emb (ix2 k j)) = _ by rw [emb7 t k j]
  have h8 : Cert.Tgn.vec (iblk0 V c 8 t) = Cert.Tgn.vec (V c main_arg7) :=
    funext fun k => show V c main_arg7 (((cfg0.win 8).blk t).view.emb (ix1 k)) = _ by rw [emb8 t k]
  have h9 : Cert.Tgn.mat (iblk0 V c 9 t) = Cert.Tgn.mat (V c main_v11) :=
    funext fun k => funext fun j => show V c main_v11 (((cfg0.win 9).blk t).view.emb (ix2 k j)) = _ by rw [emb9 t k j]
  have h10 : Cert.Tgn.vec (iblk0 V c 10 t) = Cert.Tgn.vec (V c main_arg9) :=
    funext fun k => show V c main_arg9 (((cfg0.win 10).blk t).view.emb (ix1 k)) = _ by rw [emb10 t k]
  have h11 : Cert.Tgn.mat (iblk0 V c 11 t) = Cert.Tgn.mat (V c main_v12) :=
    funext fun k => funext fun j => show V c main_v12 (((cfg0.win 11).blk t).view.emb (ix2 k j)) = _ by rw [emb11 t k j]
  have h12 : Cert.Tgn.vec (iblk0 V c 12 t) = Cert.Tgn.vec (V c main_arg11) :=
    funext fun k => show V c main_arg11 (((cfg0.win 12).blk t).view.emb (ix1 k)) = _ by rw [emb12 t k]
  rw [h0, h1, h2, h3, h4, h5, h6, h7, h8, h9, h10, h11, h12]

/-- The output array after the region: every edge's new memory row, from the region's entry contents. -/
theorem array_eq (c : Dev nD) : (dat0 (F := Ideal) V c).arrAt 13 cfg0.N = G V c :=
  (dat0 (F := Ideal) V c).arrAt_eq_of_cover 13 (G V c) (fun t _ => flushed_eq V hpay c t) cover

end Flushed

end Cert.Tgn.KEdge

end
-- ==== Proof.KEmbed.lean ====
/-
  Region 1 (the embedding kernel) read back to its array. The grid has 20 points; point `t` works on rows
  `5000·t … 5000·t + 4999` of the updated memory and of the node features and writes the same rows of the output,
  while the two weight pieces and the bias are whole at every point. A row of the output block depends only on the
  same row of the two input blocks, so block `t` of the array of all embeddings is what point `t` writes back;
  the twenty blocks tile the 100000 rows, so the array ends holding every node's embedding.
-/
import proofs.«403503_j74491912781913_3_alg».proof.Proof.Gen.KernelIdeal.Frame
import proofs.«403503_j74491912781913_3_alg».proof.Proof.Spec
import Idealize.ShloMosaic.PureOps.Ideal
import Idealize.ShloMosaic.Lib.ValueIdx
import Idealize.ShloMosaic.Lib.Pipeline.Value

set_option maxRecDepth 16384

noncomputable section

namespace Cert.Tgn.KEmbed

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The array of all embeddings, from the region's entry contents. -/
def G (c : Dev nD) : FVec Ideal S100000x128 .f32 :=
  fun i => Cert.Tgn.embedRows (R := 100000) (V c main_v23) (V c main_arg0) (V c main_v14) (V c main_v15) (V c main_arg13) (i 0) (i 1)

/-- The printed index maps over the grid: the three row-blocked windows sit at block `t` of the rows and block 0 of
    the columns; the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem N_eq : cfg1.N = 20 := N_1

/-- Row `5000·t + p` of the 100000. -/
abbrev row (t : Fin cfg1.N) (p : Fin 5000) : Fin 100000 :=
  ⟨5000 * t.val + p.val, by have h1 := t.isLt; have h2 := N_eq; have h3 := p.isLt; omega⟩

/-- Where a row-blocked window's block at point `t` sits in its array. -/
theorem emb0 (t : Fin cfg1.N) (p : Fin 5000) (k : Fin 128) : ((cfg1.win 0).blk t).view.emb (ix2 p k) = ix2 (row t p) k := by
  obtain ⟨e0, e1, -⟩ := idx_facts t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega
theorem emb1 (t : Fin cfg1.N) (p : Fin 5000) (k : Fin 128) : ((cfg1.win 1).blk t).view.emb (ix2 p k) = ix2 (row t p) k := by
  obtain ⟨-, -, e0, e1, -⟩ := idx_facts t
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega
theorem emb5 (t : Fin cfg1.N) (p : Fin 5000) (k : Fin 128) : ((cfg1.win 5).blk t).view.emb (ix2 p k) = ix2 (row t p) k := by
  obtain ⟨-, -, -, -, -, -, -, -, -, e0, e1⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 128 + 1 * k.val = k.val; omega
/-- A whole-array window's block is the array. -/
theorem emb2 (t : Fin cfg1.N) (k j : Fin 128) : ((cfg1.win 2).blk t).view.emb (ix2 k j) = ix2 k j := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * j.val = j.val; omega
theorem emb3 (t : Fin cfg1.N) (k j : Fin 128) : ((cfg1.win 3).blk t).view.emb (ix2 k j) = ix2 k j := by
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * j.val = j.val; omega
theorem emb4 (t : Fin cfg1.N) (k : Fin 128) : ((cfg1.win 4).blk t).view.emb (ix1 k) = ix1 k := by
  obtain ⟨-, -, -, -, -, -, -, -, e0, -⟩ := idx_facts t
  funext a; apply Fin.ext
  match a with
  | ⟨0, _⟩ => show win1_4.index t (0 : Fin 1) * 128 + 1 * k.val = k.val; omega

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v24).slice (win1_5.rect t)).set ↔ _
  rw [View.set_slice_whole, Rect.mem_set_unit]
  exact Iff.rfl

/-- The twenty blocks tile the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by rw [N_eq]; omega⟩
  obtain ⟨-, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

section Flushed

-- The body at an index (proved beside the kernel's payload): the output block at row `p`, column `q` is the
-- embedding row of the input blocks' row `p`.
variable (hpay : ∀ (x0 x1 : Vec Ideal S5000x128 .f32) (x2 x3 : Vec Ideal S128x128 .f32) (x4 : Vec Ideal S128 .f32)
    (p : Fin 5000) (q : Fin 128),
    out1_5 (F := Ideal) x0 x1 x2 x3 x4 (ix2 p q) = Cert.Tgn.embedRows (R := 5000) x0 x1 x2 x3 x4 p q)

include hpay

/-- What point `t` writes back is block `t` of the array of all embeddings. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  funext j
  obtain ⟨p, q, rfl⟩ : ∃ (p : Fin 5000) (q : Fin 128), j = ix2 p q := ⟨j 0, j 1, eq_ix2 j⟩
  show out1_5 (F := Ideal) (iblk1 V c 0 t) (iblk1 V c 1 t) (iblk1 V c 2 t) (iblk1 V c 3 t) (iblk1 V c 4 t) (ix2 p q)
    = G V c (((cfg1.win 5).blk t).view.emb (ix2 p q))
  rw [hpay (iblk1 V c 0 t) (iblk1 V c 1 t) (iblk1 V c 2 t) (iblk1 V c 3 t) (iblk1 V c 4 t) p q, emb5 t p q]
  show Cert.Tgn.embedRow _ _ _ _ _ q = Cert.Tgn.embedRow _ _ _ _ _ q
  have h0 : Cert.Tgn.rowOf (iblk1 V c 0 t) p = Cert.Tgn.rowOf (V c main_v23) (row t p) :=
    funext fun k => show V c main_v23 (((cfg1.win 0).blk t).view.emb (ix2 p k)) = _ by rw [emb0 t p k]
  have h1 : Cert.Tgn.rowOf (iblk1 V c 1 t) p = Cert.Tgn.rowOf (V c main_arg0) (row t p) :=
    funext fun k => show V c main_arg0 (((cfg1.win 1).blk t).view.emb (ix2 p k)) = _ by rw [emb1 t p k]
  have h2 : Cert.Tgn.mat (iblk1 V c 2 t) = Cert.Tgn.mat (V c main_v14) :=
    funext fun k => funext fun j => show V c main_v14 (((cfg1.win 2).blk t).view.emb (ix2 k j)) = _ by rw [emb2 t k j]
  have h3 : Cert.Tgn.mat (iblk1 V c 3 t) = Cert.Tgn.mat (V c main_v15) :=
    funext fun k => funext fun j => show V c main_v15 (((cfg1.win 3).blk t).view.emb (ix2 k j)) = _ by rw [emb3 t k j]
  have h4 : Cert.Tgn.vec (iblk1 V c 4 t) = Cert.Tgn.vec (V c main_arg13) :=
    funext fun k => show V c main_arg13 (((cfg1.win 4).blk t).view.emb (ix1 k)) = _ by rw [emb4 t k]
  rw [h0, h1, h2, h3, h4]

/-- The output array after the region: every node's embedding, from the region's entry contents. -/
theorem array_eq (c : Dev nD) : (dat1 (F := Ideal) V c).arrAt 5 cfg1.N = G V c :=
  (dat1 (F := Ideal) V c).arrAt_eq_of_cover 5 (G V c) (fun t _ => flushed_eq V hpay c t) cover

end Flushed

end Cert.Tgn.KEmbed

end
-- ==== Proof.KValue.lean ====
/-
  The idealized kernel's two result buffers as functions of the arguments. Before the first launch the host gathers the
  memory's rows at the raw source and target indices and transposes and cuts the weights; the first region leaves
  every edge's new memory row; the host scatters those rows into the memory at the wrapped source indices; the second
  region leaves every node's embedding from that updated memory. Each buffer is read through the fold of the host
  stretches and the regions' write-backs, one boundary at a time.
-/
import proofs.«403503_j74491912781913_3_alg».proof.Proof.Gen.KernelIdeal.Frame
import proofs.«403503_j74491912781913_3_alg».proof.Proof.Terms
import proofs.«403503_j74491912781913_3_alg».proof.Proof.KEdge
import proofs.«403503_j74491912781913_3_alg».proof.Proof.KEmbed
import Idealize.ShloMosaic.Lib.StableHlo.Run

set_option maxRecDepth 16384

noncomputable section

namespace Cert.Tgn.KValue

open Idealize.ShloMosaic Idealize.ShloMosaic.TcCoe Idealize.ShloMosaic.ValueIdx Idealize.SL.Sem
open Cert.KernelIdeal Cert.KernelIdeal.Gen Cert.Tgn
open Idealize.ShloMosaic.Pipeline (Dat)

variable (m : (ℓ : Loc nD τ sig) → Buf (Elt Ideal) ℓ) (ρ : Dev nD → PrngReg)

/-! ## The first region's entry contents -/

theorem W4_v1 (c : Dev nD) : W4 m ρ c (Proc.devRef .tc main_v1) = srcIdx (m ((c : Thread nD τ).loc main_arg1)) := by
  dsimp only [W4, W3, W2, W1, W0]; after_results; rfl
theorem W4_v4 (c : Dev nD) : W4 m ρ c (Proc.devRef .tc main_v4) = gatherRows (m ((c : Thread nD τ).loc main_arg3)) (srcIdx (m ((c : Thread nD τ).loc main_arg1))) := by
  dsimp only [W4, W3, W2, W1, W0]; after_results; rfl
theorem W4_v5 (c : Dev nD) : W4 m ρ c (Proc.devRef .tc main_v5) = gatherRows (m ((c : Thread nD τ).loc main_arg3)) (dstIdx (m ((c : Thread nD τ).loc main_arg1))) := by
  dsimp only [W4, W3, W2, W1, W0]; after_results; rfl
theorem W4_v7 (c : Dev nD) : W4 m ρ c (Proc.devRef .tc main_v7) = w1a (m ((c : Thread nD τ).loc main_arg4)) := by
  dsimp only [W4, W3, W2, W1, W0]; after_results; rfl
theorem W4_v8 (c : Dev nD) : W4 m ρ c (Proc.devRef .tc main_v8) = w1c (m ((c : Thread nD τ).loc main_arg4)) := by
  dsimp only [W4, W3, W2, W1, W0]; after_results; rfl
theorem W4_v9 (c : Dev nD) : W4 m ρ c (Proc.devRef .tc main_v9) = w1f (m ((c : Thread nD τ).loc main_arg4)) := by
  dsimp only [W4, W3, W2, W1, W0]; after_results; rfl
theorem W4_v10 (c : Dev nD) : W4 m ρ c (Proc.devRef .tc main_v10) = w2t (m ((c : Thread nD τ).loc main_arg6)) := by
  dsimp only [W4, W3, W2, W1, W0]; after_results; rfl
theorem W4_v11 (c : Dev nD) : W4 m ρ c (Proc.devRef .tc main_v11) = wgt (m ((c : Thread nD τ).loc main_arg8)) := by
  dsimp only [W4, W3, W2, W1, W0]; after_results; rfl
theorem W4_v12 (c : Dev nD) : W4 m ρ c (Proc.devRef .tc main_v12) = wgt (m ((c : Thread nD τ).loc main_arg10)) := by
  dsimp only [W4, W3, W2, W1, W0]; after_results; rfl
theorem W4_v14 (c : Dev nD) : W4 m ρ c (Proc.devRef .tc main_v14) = weu (m ((c : Thread nD τ).loc main_arg12)) := by
  dsimp only [W4, W3, W2, W1, W0]; after_results; rfl
theorem W4_v15 (c : Dev nD) : W4 m ρ c (Proc.devRef .tc main_v15) = wev (m ((c : Thread nD τ).loc main_arg12)) := by
  dsimp only [W4, W3, W2, W1, W0]; after_results; rfl
theorem W4_arg0 (c : Dev nD) : W4 m ρ c (Proc.devRef .tc main_arg0) = (m ((c : Thread nD τ).loc main_arg0)) := by
  dsimp only [W4, W3, W2, W1, W0]; after_results
theorem W4_arg2 (c : Dev nD) : W4 m ρ c (Proc.devRef .tc main_arg2) = (m ((c : Thread nD τ).loc main_arg2)) := by
  dsimp only [W4, W3, W2, W1, W0]; after_results
theorem W4_arg3 (c : Dev nD) : W4 m ρ c (Proc.devRef .tc main_arg3) = (m ((c : Thread nD τ).loc main_arg3)) := by
  dsimp only [W4, W3, W2, W1, W0]; after_results
theorem W4_arg5 (c : Dev nD) : W4 m ρ c (Proc.devRef .tc main_arg5) = (m ((c : Thread nD τ).loc main_arg5)) := by
  dsimp only [W4, W3, W2, W1, W0]; after_results
theorem W4_arg7 (c : Dev nD) : W4 m ρ c (Proc.devRef .tc main_arg7) = (m ((c : Thread nD τ).loc main_arg7)) := by
  dsimp only [W4, W3, W2, W1, W0]; after_results
theorem W4_arg9 (c : Dev nD) : W4 m ρ c (Proc.devRef .tc main_arg9) = (m ((c : Thread nD τ).loc main_arg9)) := by
  dsimp only [W4, W3, W2, W1, W0]; after_results
theorem W4_arg11 (c : Dev nD) : W4 m ρ c (Proc.devRef .tc main_arg11) = (m ((c : Thread nD τ).loc main_arg11)) := by
  dsimp only [W4, W3, W2, W1, W0]; after_results
theorem W4_arg13 (c : Dev nD) : W4 m ρ c (Proc.devRef .tc main_arg13) = (m ((c : Thread nD τ).loc main_arg13)) := by
  dsimp only [W4, W3, W2, W1, W0]; after_results

/-! ## After the first region: every edge's new memory row -/

section Regions

variable (hpay0 : ∀ (x0 x1 : Vec Ideal S4000x128 .f32) (x2 : Vec Ideal S4000x64 .f32) (x3 x4 : Vec Ideal S128x128 .f32)
    (x5 : Vec Ideal S64x128 .f32) (x6 : Vec Ideal S128 .f32) (x7 : Vec Ideal S128x128 .f32) (x8 : Vec Ideal S128 .f32)
    (x9 : Vec Ideal S128x384 .f32) (x10 : Vec Ideal S384 .f32) (x11 : Vec Ideal S128x384 .f32) (x12 : Vec Ideal S384 .f32)
    (p : Fin 4000) (q : Fin 128),
    out0_13 (F := Ideal) x0 x1 x2 x3 x4 x5 x6 x7 x8 x9 x10 x11 x12 (ix2 p q)
      = Cert.Tgn.newRows (R := 4000) x0 x1 x2 x3 x4 x5 x6 x7 x8 x9 x10 x11 x12 p q)
  (hpay1 : ∀ (x0 x1 : Vec Ideal S5000x128 .f32) (x2 x3 : Vec Ideal S128x128 .f32) (x4 : Vec Ideal S128 .f32)
    (p : Fin 5000) (q : Fin 128),
    out1_5 (F := Ideal) x0 x1 x2 x3 x4 (ix2 p q) = Cert.Tgn.embedRows (R := 5000) x0 x1 x2 x3 x4 p q)

include hpay0

/-- The first region's output array is the new memory row of every edge. -/
theorem W5_v16 (c : Dev nD) : W5 m ρ c (Proc.devRef .tc main_v16) = newMem (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W5_arr m ρ c 13).trans ?_
  rw [KEdge.array_eq (V4 m ρ) hpay0 c]
  funext i
  show newRows (R := 500000) (W4 m ρ c (Proc.devRef .tc main_v4)) (W4 m ρ c (Proc.devRef .tc main_v5)) (W4 m ρ c (Proc.devRef .tc main_arg2)) (W4 m ρ c (Proc.devRef .tc main_v7)) (W4 m ρ c (Proc.devRef .tc main_v8)) (W4 m ρ c (Proc.devRef .tc main_v9)) (W4 m ρ c (Proc.devRef .tc main_arg5)) (W4 m ρ c (Proc.devRef .tc main_v10)) (W4 m ρ c (Proc.devRef .tc main_arg7)) (W4 m ρ c (Proc.devRef .tc main_v11)) (W4 m ρ c (Proc.devRef .tc main_arg9)) (W4 m ρ c (Proc.devRef .tc main_v12)) (W4 m ρ c (Proc.devRef .tc main_arg11)) (i 0) (i 1) = _
  rw [W4_v4, W4_v5, W4_arg2, W4_v7, W4_v8, W4_v9, W4_arg5, W4_v10, W4_arg7, W4_v11, W4_arg9, W4_v12, W4_arg11]
  rfl

/-! ## The scatter between the regions, and the second region's entry contents -/

/-- The updated memory: the new rows scattered into the memory at the wrapped source indices. -/
theorem W6_v23 (c : Dev nD) : W6 m ρ c (Proc.devRef .tc main_v23) = updMem (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : W6 m ρ c (Proc.devRef .tc main_v23)
      = Host.scatter scatter_S100000x128_S500000x1_S500000x128_1_0_0_1 (fun _ b => b) (W5 m ρ c (Proc.devRef .tc main_arg3))
          (broadcastInDim S500000x1 ![0] bcast_S500000_S500000x1_0 (wrapIdx (W5 m ρ c (Proc.devRef .tc main_v1))))
          (W5 m ρ c (Proc.devRef .tc main_v16)) := by
    dsimp only [W6]; after_results; rfl
  rw [h, W5_v16 m ρ hpay0 c, W5_of_ne m ρ c main_arg3 (by decide), W5_of_ne m ρ c main_v1 (by decide), W4_arg3, W4_v1]
  rfl

omit hpay0 in
theorem W6_arg0 (c : Dev nD) : W6 m ρ c (Proc.devRef .tc main_arg0) = W4 m ρ c (Proc.devRef .tc main_arg0) := by
  refine Eq.trans ?_ (W5_of_ne m ρ c main_arg0 (by decide))
  dsimp only [W6]; after_results
omit hpay0 in
theorem W6_v14 (c : Dev nD) : W6 m ρ c (Proc.devRef .tc main_v14) = W4 m ρ c (Proc.devRef .tc main_v14) := by
  refine Eq.trans ?_ (W5_of_ne m ρ c main_v14 (by decide))
  dsimp only [W6]; after_results
omit hpay0 in
theorem W6_v15 (c : Dev nD) : W6 m ρ c (Proc.devRef .tc main_v15) = W4 m ρ c (Proc.devRef .tc main_v15) := by
  refine Eq.trans ?_ (W5_of_ne m ρ c main_v15 (by decide))
  dsimp only [W6]; after_results
omit hpay0 in
theorem W6_arg13 (c : Dev nD) : W6 m ρ c (Proc.devRef .tc main_arg13) = W4 m ρ c (Proc.devRef .tc main_arg13) := by
  refine Eq.trans ?_ (W5_of_ne m ρ c main_arg13 (by decide))
  dsimp only [W6]; after_results

/-! ## After the second region -/

/-- The updated memory's buffer is an input of the second region: it ends as the region found it. -/
theorem W7_v23 (c : Dev nD) : W7 m ρ c (Proc.devRef .tc main_v23) = updMem (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((W7_arr m ρ c 0).trans (((dat1 (V6 m ρ) c).arrAt_in 0 rfl _).trans (A_eq1 (V6 m ρ) c 0))).trans (W6_v23 m ρ hpay0 c)

include hpay1

/-- The second region's output array is every node's embedding. -/
theorem W7_v24 (c : Dev nD) : W7 m ρ c (Proc.devRef .tc main_v24) = embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 5).trans ?_
  rw [KEmbed.array_eq (V6 m ρ) hpay1 c]
  funext i
  show embedRows (R := 100000) (W6 m ρ c (Proc.devRef .tc main_v23)) (W6 m ρ c (Proc.devRef .tc main_arg0)) (W6 m ρ c (Proc.devRef .tc main_v14))
    (W6 m ρ c (Proc.devRef .tc main_v15)) (W6 m ρ c (Proc.devRef .tc main_arg13)) (i 0) (i 1) = _
  rw [W6_v23 m ρ hpay0 c, W6_arg0, W6_v14, W6_v15, W6_arg13, W4_arg0, W4_v14, W4_v15, W4_arg13]
  rfl

end Regions

end Cert.Tgn.KValue

end
-- ==== Proof.RefNew.lean ====
import proofs.«403503_j74491912781913_3_alg».proof.Proof.RefRead
import proofs.«403503_j74491912781913_3_alg».proof.Proof.Terms
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

noncomputable section

open scoped BigOperators

namespace Cert.Tgn.RefNew

open Idealize.ShloMosaic Idealize.ShloMosaic.ValueIdx Cert.ReferenceIdeal Cert.ReferenceIdeal.ReadP

variable [Cert.KernelIdeal.Facts] [Cert.ReferenceIdeal.Facts]

/-! ## Words -/

/-- The word of zero reads as the integer zero. -/
private theorem toInt_zero32 : (0#32 : BitVec 32).toInt = 0 := by decide

/-- Wrapping a non-negative index changes nothing: the signed compare with zero is the zero bit, and the select
    picks its third operand. -/
private theorem wrap_nonneg (a b : BitVec 32) (h : 0 ≤ a.toInt) :
    Scalar.select (IntOp.cmpi .slt a 0#32) b a = a := by
  have hz : IntOp.cmpi .slt a 0#32 = 0#1 := eq_zero_of_ne_one (fun h1 => by
    have h2 := IntOp.cmpi_slt.mp h1
    rw [toInt_zero32] at h2
    omega)
  rw [hz, select_zero]

/-- The word of the float one denotes one. -/
private theorem ofBits_one : Ideal.ofBits .f32 0x3F800000#32 = 1 := by
  simp [Ideal.ofBits, Ideal.ieee, -EReal.coe_mul]; norm_num

/-- The sigmoid spelt out with the word of one is the logistic function. -/
private theorem sigmoid_eq (x : EReal) :
    Ideal.div (Ideal.ofBits .f32 0x3F800000#32) (Ideal.ofBits .f32 0x3F800000#32 + Ideal.exp (-x)) = Ideal.logistic x := by
  rw [ofBits_one]; rfl

/-! ## A three-piece concatenation along the columns, read at an index -/

section Cat
variable {α : Type} {R : Nat}

private theorem cat3_fst (a c : (⟨2, ![R, 128]⟩ : Shape).Idx → α) (f : (⟨2, ![R, 64]⟩ : Shape).Idx → α)
    (h : Shape.Concatenates [(⟨2, ![R, 128]⟩ : Shape), ⟨2, ![R, 128]⟩, ⟨2, ![R, 64]⟩] ⟨2, ![R, 320]⟩ 1)
    (e : Fin R) (k : Fin 128) (k' : Fin 320) (hk : k'.val = k.val) :
    concatenate (⟨2, ![R, 320]⟩ : Shape) 1 [⟨⟨2, ![R, 128]⟩, a⟩, ⟨⟨2, ![R, 128]⟩, c⟩, ⟨⟨2, ![R, 64]⟩, f⟩] h (ix2 e k') = a (ix2 e k) := by
  refine concatenate_apply_piece (t := (⟨2, ![R, 320]⟩ : Shape)) 1
    [⟨⟨2, ![R, 128]⟩, a⟩, ⟨⟨2, ![R, 128]⟩, c⟩, ⟨⟨2, ![R, 64]⟩, f⟩] h (ix2 e k') 0 (Nat.zero_lt_succ _) ⟨2, ![R, 128]⟩ a rfl rfl 0 rfl (ix2 e k) ?_ ?_
  · intro b hb
    match b with
    | ⟨0, _⟩ => rfl
    | ⟨1, _⟩ => exact absurd rfl hb
  · show 0 + k.val = k'.val
    omega

private theorem cat3_snd (a c : (⟨2, ![R, 128]⟩ : Shape).Idx → α) (f : (⟨2, ![R, 64]⟩ : Shape).Idx → α)
    (h : Shape.Concatenates [(⟨2, ![R, 128]⟩ : Shape), ⟨2, ![R, 128]⟩, ⟨2, ![R, 64]⟩] ⟨2, ![R, 320]⟩ 1)
    (e : Fin R) (k : Fin 128) (k' : Fin 320) (hk : k'.val = 128 + k.val) :
    concatenate (⟨2, ![R, 320]⟩ : Shape) 1 [⟨⟨2, ![R, 128]⟩, a⟩, ⟨⟨2, ![R, 128]⟩, c⟩, ⟨⟨2, ![R, 64]⟩, f⟩] h (ix2 e k') = c (ix2 e k) := by
  refine concatenate_apply_piece (t := (⟨2, ![R, 320]⟩ : Shape)) 1
    [⟨⟨2, ![R, 128]⟩, a⟩, ⟨⟨2, ![R, 128]⟩, c⟩, ⟨⟨2, ![R, 64]⟩, f⟩] h (ix2 e k') 1 (Nat.succ_lt_succ (Nat.zero_lt_succ _)) ⟨2, ![R, 128]⟩ c rfl rfl 128 rfl (ix2 e k) ?_ ?_
  · intro b hb
    match b with
    | ⟨0, _⟩ => rfl
    | ⟨1, _⟩ => exact absurd rfl hb
  · show 128 + k.val = k'.val
    omega

private theorem cat3_thd (a c : (⟨2, ![R, 128]⟩ : Shape).Idx → α) (f : (⟨2, ![R, 64]⟩ : Shape).Idx → α)
    (h : Shape.Concatenates [(⟨2, ![R, 128]⟩ : Shape), ⟨2, ![R, 128]⟩, ⟨2, ![R, 64]⟩] ⟨2, ![R, 320]⟩ 1)
    (e : Fin R) (k : Fin 64) (k' : Fin 320) (hk : k'.val = 256 + k.val) :
    concatenate (⟨2, ![R, 320]⟩ : Shape) 1 [⟨⟨2, ![R, 128]⟩, a⟩, ⟨⟨2, ![R, 128]⟩, c⟩, ⟨⟨2, ![R, 64]⟩, f⟩] h (ix2 e k') = f (ix2 e k) := by
  refine concatenate_apply_piece (t := (⟨2, ![R, 320]⟩ : Shape)) 1
    [⟨⟨2, ![R, 128]⟩, a⟩, ⟨⟨2, ![R, 128]⟩, c⟩, ⟨⟨2, ![R, 64]⟩, f⟩] h (ix2 e k') 2 (Nat.succ_lt_succ (Nat.succ_lt_succ (Nat.zero_lt_succ _))) ⟨2, ![R, 64]⟩ f rfl rfl 256 rfl (ix2 e k) ?_ ?_
  · intro b hb
    match b with
    | ⟨0, _⟩ => rfl
    | ⟨1, _⟩ => exact absurd rfl hb
  · show 256 + k.val = k'.val
    omega

end Cat

/-! ## The index vectors and the gathers -/

/-- The dimension records of the two programs' namespaces have equal fields. -/
private theorem gather_rec_eq :
    Cert.ReferenceIdeal.gather_S100000x128_S500000x1_S500000x128_1_0_n_n_0_1_1128
      = Cert.KernelIdeal.gather_S100000x128_S500000x1_S500000x128_1_0_n_n_0_1_1128 := rfl

private theorem scatter_rec_eq :
    Cert.ReferenceIdeal.scatter_S100000x128_S500000x1_S500000x128_1_0_0_1
      = Cert.KernelIdeal.scatter_S100000x128_S500000x1_S500000x128_1_0_0_1 := rfl

/-- Rows 0 and 1 of the edge list, flattened: the same slice and reshape on both sides. -/
private theorem v1_eq (x1 : IVec S2x500000 32) : val_main_v1 (F := Ideal) x1 = Cert.Tgn.srcIdx x1 := rfl
private theorem v3_eq (x1 : IVec S2x500000 32) : val_main_v3 (F := Ideal) x1 = Cert.Tgn.dstIdx x1 := rfl

private theorem v1_nonneg (x1 : IVec S2x500000 32) (hnn : ∀ i, 0 ≤ (x1 i).toInt) (i : S500000.Idx) :
    0 ≤ (val_main_v1 (F := Ideal) x1 i).toInt := by
  rw [val_main_v1_apply, val_main_v0_apply]; exact hnn _

private theorem v3_nonneg (x1 : IVec S2x500000 32) (hnn : ∀ i, 0 ≤ (x1 i).toInt) (i : S500000.Idx) :
    0 ≤ (val_main_v3 (F := Ideal) x1 i).toInt := by
  rw [val_main_v3_apply, val_main_v2_apply]; exact hnn _

/-- The wrapped source indices (first gather) are the raw ones. -/
private theorem v8_eq (x1 : IVec S2x500000 32) (hnn : ∀ i, 0 ≤ (x1 i).toInt) :
    val_main_v8 (F := Ideal) x1 = Cert.Tgn.srcIdx x1 := by
  rw [← v1_eq]
  funext i
  rw [val_main_v8_apply, val_main_v5_apply, val_main_v4_apply, val_main_c_apply]
  exact wrap_nonneg _ _ (v1_nonneg x1 hnn i)

/-- The wrapped target indices are the raw ones. -/
private theorem v15_eq (x1 : IVec S2x500000 32) (hnn : ∀ i, 0 ≤ (x1 i).toInt) :
    val_main_v15 (F := Ideal) x1 = Cert.Tgn.dstIdx x1 := by
  rw [← v3_eq]
  funext i
  rw [val_main_v15_apply, val_main_v12_apply, val_main_v11_apply, val_main_c_1_apply]
  exact wrap_nonneg _ _ (v3_nonneg x1 hnn i)

/-- The wrapped source indices (second gather) are the raw ones. -/
private theorem v35_eq (x1 : IVec S2x500000 32) (hnn : ∀ i, 0 ≤ (x1 i).toInt) :
    val_main_v35 (F := Ideal) x1 = Cert.Tgn.srcIdx x1 := by
  rw [← v1_eq]
  funext i
  rw [val_main_v35_apply, val_main_v32_apply, val_main_v31_apply, val_main_c_3_apply]
  exact wrap_nonneg _ _ (v1_nonneg x1 hnn i)

/-- The three gathers read the memory's rows at the raw index vectors. -/
private theorem v10_eq (x1 : IVec S2x500000 32) (x3 : FVec Ideal S100000x128 .f32) (hnn : ∀ i, 0 ≤ (x1 i).toInt) :
    val_main_v10 (F := Ideal) x1 x3 = Cert.Tgn.gatherRows x3 (Cert.Tgn.srcIdx x1) := by
  unfold val_main_v10 val_main_v9
  rw [v8_eq x1 hnn, gather_rec_eq]
  rfl

private theorem v17_eq (x1 : IVec S2x500000 32) (x3 : FVec Ideal S100000x128 .f32) (hnn : ∀ i, 0 ≤ (x1 i).toInt) :
    val_main_v17 (F := Ideal) x1 x3 = Cert.Tgn.gatherRows x3 (Cert.Tgn.dstIdx x1) := by
  unfold val_main_v17 val_main_v16
  rw [v15_eq x1 hnn, gather_rec_eq]
  rfl

private theorem v37_eq (x1 : IVec S2x500000 32) (x3 : FVec Ideal S100000x128 .f32) (hnn : ∀ i, 0 ≤ (x1 i).toInt) :
    val_main_v37 (F := Ideal) x1 x3 = Cert.Tgn.gatherRows x3 (Cert.Tgn.srcIdx x1) := by
  unfold val_main_v37 val_main_v36
  rw [v35_eq x1 hnn, gather_rec_eq]
  rfl

/-- The scatter's index operand: the same wrap of the source indices, column-broadcast. -/
private theorem v81_eq (x1 : IVec S2x500000 32) :
    val_main_v81 (F := Ideal) x1
      = broadcastInDim Cert.KernelIdeal.S500000x1 ![0] Cert.KernelIdeal.Facts₀.bcast_S500000_S500000x1_0
          (Cert.Tgn.wrapIdx (Cert.Tgn.srcIdx x1)) := rfl

/-! ## The transposed weights and their row pieces -/

private theorem v19_eq (x4 : FVec Ideal S128x320 .f32) : val_main_v19 (F := Ideal) x4 = Cert.Tgn.w1t x4 := rfl
private theorem v26_eq (x6 : FVec Ideal S128x128 .f32) : val_main_v26 (F := Ideal) x6 = Cert.Tgn.w2t x6 := rfl
private theorem v38_eq (x8 : FVec Ideal S384x128 .f32) : val_main_v38 (F := Ideal) x8 = Cert.Tgn.wgt x8 := rfl
private theorem v43_eq (x10 : FVec Ideal S384x128 .f32) : val_main_v43 (F := Ideal) x10 = Cert.Tgn.wgt x10 := rfl

/-- A row piece of the transposed first-layer weight reads the transposed weight at the piece's offset. -/
private theorem w1a_at (x4 : FVec Ideal S128x320 .f32) (k j : Fin 128) (k' : Fin 320) (hk : k'.val = k.val) :
    Cert.Tgn.w1a x4 (ix2 k j) = Cert.Tgn.w1t x4 (ix2 k' j) := by
  unfold Cert.Tgn.w1a
  exact extractStridedSlice_apply ![0, 0] (Cert.Tgn.w1t x4) _ (ix2 k j) (ix2 k' j) (fun a => match a with
    | ⟨0, _⟩ => by show k'.val = 0 + k.val; omega
    | ⟨1, _⟩ => by show j.val = 0 + j.val; omega)

private theorem w1c_at (x4 : FVec Ideal S128x320 .f32) (k j : Fin 128) (k' : Fin 320) (hk : k'.val = 128 + k.val) :
    Cert.Tgn.w1c x4 (ix2 k j) = Cert.Tgn.w1t x4 (ix2 k' j) := by
  unfold Cert.Tgn.w1c
  exact extractStridedSlice_apply ![128, 0] (Cert.Tgn.w1t x4) _ (ix2 k j) (ix2 k' j) (fun a => match a with
    | ⟨0, _⟩ => by show k'.val = 128 + k.val; omega
    | ⟨1, _⟩ => by show j.val = 0 + j.val; omega)

private theorem w1f_at (x4 : FVec Ideal S128x320 .f32) (k : Fin 64) (j : Fin 128) (k' : Fin 320) (hk : k'.val = 256 + k.val) :
    Cert.Tgn.w1f x4 (ix2 k j) = Cert.Tgn.w1t x4 (ix2 k' j) := by
  unfold Cert.Tgn.w1f
  exact extractStridedSlice_apply ![256, 0] (Cert.Tgn.w1t x4) _ (ix2 k j) (ix2 k' j) (fun a => match a with
    | ⟨0, _⟩ => by show k'.val = 256 + k.val; omega
    | ⟨1, _⟩ => by show j.val = 0 + j.val; omega)

/-! ## The reference's index functions at explicit coordinates -/

private theorem lidx20_eq (e : Fin 500000) (j : Fin 128) (k : Fin 320) : lidx_main_v20 (ix2 e j) k = ix2 e k :=
  funext fun a => Fin.ext (by match a with | ⟨0, _⟩ => rfl | ⟨1, _⟩ => rfl)
private theorem ridx20_eq (e : Fin 500000) (j : Fin 128) (k : Fin 320) : ridx_main_v20 (ix2 e j) k = ix2 k j :=
  funext fun a => Fin.ext (by match a with | ⟨0, _⟩ => rfl | ⟨1, _⟩ => rfl)
private theorem lidx27_eq (e : Fin 500000) (j : Fin 128) (k : Fin 128) : lidx_main_v27 (ix2 e j) k = ix2 e k :=
  funext fun a => Fin.ext (by match a with | ⟨0, _⟩ => rfl | ⟨1, _⟩ => rfl)
private theorem ridx27_eq (e : Fin 500000) (j : Fin 128) (k : Fin 128) : ridx_main_v27 (ix2 e j) k = ix2 k j :=
  funext fun a => Fin.ext (by match a with | ⟨0, _⟩ => rfl | ⟨1, _⟩ => rfl)
private theorem lidx39_eq (e : Fin 500000) (q : Fin 384) (k : Fin 128) : lidx_main_v39 (ix2 e q) k = ix2 e k :=
  funext fun a => Fin.ext (by match a with | ⟨0, _⟩ => rfl | ⟨1, _⟩ => rfl)
private theorem ridx39_eq (e : Fin 500000) (q : Fin 384) (k : Fin 128) : ridx_main_v39 (ix2 e q) k = ix2 k q :=
  funext fun a => Fin.ext (by match a with | ⟨0, _⟩ => rfl | ⟨1, _⟩ => rfl)
private theorem lidx44_eq (e : Fin 500000) (q : Fin 384) (k : Fin 128) : lidx_main_v44 (ix2 e q) k = ix2 e k :=
  funext fun a => Fin.ext (by match a with | ⟨0, _⟩ => rfl | ⟨1, _⟩ => rfl)
private theorem ridx44_eq (e : Fin 500000) (q : Fin 384) (k : Fin 128) : ridx_main_v44 (ix2 e q) k = ix2 k q :=
  funext fun a => Fin.ext (by match a with | ⟨0, _⟩ => rfl | ⟨1, _⟩ => rfl)

/-- The three 128-column slices of a 384-wide gate array read it at the specification's three columns. -/
private theorem idx48_eq (e : Fin 500000) (j : Fin 128) : idx_main_v48 (ix2 e j) = ix2 e (Cert.Tgn.col0 j) :=
  funext fun a => Fin.ext (by match a with | ⟨0, _⟩ => rfl | ⟨1, _⟩ => rfl)
private theorem idx49_eq (e : Fin 500000) (j : Fin 128) : idx_main_v49 (ix2 e j) = ix2 e (Cert.Tgn.col1 j) :=
  funext fun a => Fin.ext (by match a with | ⟨0, _⟩ => rfl | ⟨1, _⟩ => rfl)
private theorem idx50_eq (e : Fin 500000) (j : Fin 128) : idx_main_v50 (ix2 e j) = ix2 e (Cert.Tgn.col2 j) :=
  funext fun a => Fin.ext (by match a with | ⟨0, _⟩ => rfl | ⟨1, _⟩ => rfl)
private theorem idx51_eq (e : Fin 500000) (j : Fin 128) : idx_main_v51 (ix2 e j) = ix2 e (Cert.Tgn.col0 j) :=
  funext fun a => Fin.ext (by match a with | ⟨0, _⟩ => rfl | ⟨1, _⟩ => rfl)
private theorem idx52_eq (e : Fin 500000) (j : Fin 128) : idx_main_v52 (ix2 e j) = ix2 e (Cert.Tgn.col1 j) :=
  funext fun a => Fin.ext (by match a with | ⟨0, _⟩ => rfl | ⟨1, _⟩ => rfl)
private theorem idx53_eq (e : Fin 500000) (j : Fin 128) : idx_main_v53 (ix2 e j) = ix2 e (Cert.Tgn.col2 j) :=
  funext fun a => Fin.ext (by match a with | ⟨0, _⟩ => rfl | ⟨1, _⟩ => rfl)

/-- The row-broadcast biases at an index. -/
private theorem v22_at (x5 : FVec Ideal S128 .f32) (e : Fin 500000) (j : Fin 128) :
    val_main_v22 (F := Ideal) x5 (ix2 e j) = x5 (ix1 j) := by
  rw [val_main_v22_apply, val_main_v21_apply]
  exact congrArg x5 (funext fun a => Fin.ext (by match a with | ⟨0, _⟩ => rfl))
private theorem v29_at (x7 : FVec Ideal S128 .f32) (e : Fin 500000) (j : Fin 128) :
    val_main_v29 (F := Ideal) x7 (ix2 e j) = x7 (ix1 j) := by
  rw [val_main_v29_apply, val_main_v28_apply]
  exact congrArg x7 (funext fun a => Fin.ext (by match a with | ⟨0, _⟩ => rfl))
private theorem v41_at (x9 : FVec Ideal S384 .f32) (e : Fin 500000) (q : Fin 384) :
    val_main_v41 (F := Ideal) x9 (ix2 e q) = x9 (ix1 q) := by
  rw [val_main_v41_apply, val_main_v40_apply]
  exact congrArg x9 (funext fun a => Fin.ext (by match a with | ⟨0, _⟩ => rfl))
private theorem v46_at (x11 : FVec Ideal S384 .f32) (e : Fin 500000) (q : Fin 384) :
    val_main_v46 (F := Ideal) x11 (ix2 e q) = x11 (ix1 q) := by
  rw [val_main_v46_apply, val_main_v45_apply]
  exact congrArg x11 (funext fun a => Fin.ext (by match a with | ⟨0, _⟩ => rfl))

/-! ## The stages of the reference at an edge `e` and a column -/

section Stages

variable (x1 : IVec S2x500000 32) (x2 : FVec Ideal S500000x64 .f32) (x3 : FVec Ideal S100000x128 .f32)
  (x4 : FVec Ideal S128x320 .f32) (x5 : FVec Ideal S128 .f32) (x6 : FVec Ideal S128x128 .f32) (x7 : FVec Ideal S128 .f32)
  (x8 : FVec Ideal S384x128 .f32) (x9 : FVec Ideal S384 .f32) (x10 : FVec Ideal S384x128 .f32) (x11 : FVec Ideal S384 .f32)

/-- The concatenated row `[memory[row], memory[col], edge features]` read in each of its three pieces. -/
private theorem v18_fst (hnn : ∀ i, 0 ≤ (x1 i).toInt) (e : Fin 500000) (k : Fin 128) (k' : Fin 320) (hk : k'.val = k.val) :
    val_main_v18 (F := Ideal) x1 x2 x3 (ix2 e k') = Cert.Tgn.gatherRows x3 (Cert.Tgn.srcIdx x1) (ix2 e k) := by
  unfold val_main_v18
  refine (cat3_fst _ _ _ _ e k k' hk).trans ?_
  rw [v10_eq x1 x3 hnn]

private theorem v18_snd (hnn : ∀ i, 0 ≤ (x1 i).toInt) (e : Fin 500000) (k : Fin 128) (k' : Fin 320) (hk : k'.val = 128 + k.val) :
    val_main_v18 (F := Ideal) x1 x2 x3 (ix2 e k') = Cert.Tgn.gatherRows x3 (Cert.Tgn.dstIdx x1) (ix2 e k) := by
  unfold val_main_v18
  refine (cat3_snd _ _ _ _ e k k' hk).trans ?_
  rw [v17_eq x1 x3 hnn]

private theorem v18_thd (e : Fin 500000) (k : Fin 64) (k' : Fin 320) (hk : k'.val = 256 + k.val) :
    val_main_v18 (F := Ideal) x1 x2 x3 (ix2 e k') = x2 (ix2 e k) := by
  unfold val_main_v18
  exact cat3_thd _ _ _ _ e k k' hk

/-- The first layer: the one contraction over the 320 concatenated columns is the sum of the three contractions over
    the pieces. -/
private theorem hidden_eq (hnn : ∀ i, 0 ≤ (x1 i).toInt) (e : Fin 500000) (j : Fin 128) :
    val_main_v25 (F := Ideal) x1 x2 x3 x4 x5 (ix2 e j) = Cert.Tgn.hidden (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) j := by
  rw [val_main_v25_apply, val_main_v23_apply, val_main_v24_apply, val_main_cst_apply, v22_at, val_main_v20_apply]
  have hS : (∑ k : Fin 320, val_main_v18 (F := Ideal) x1 x2 x3 (lidx_main_v20 (ix2 e j) k)
        * val_main_v19 (F := Ideal) x4 (ridx_main_v20 (ix2 e j) k))
      = ((∑ k : Fin 128, Cert.Tgn.gatherRows x3 (Cert.Tgn.srcIdx x1) (ix2 e k) * Cert.Tgn.w1a x4 (ix2 k j))
          + (∑ k : Fin 128, Cert.Tgn.gatherRows x3 (Cert.Tgn.dstIdx x1) (ix2 e k) * Cert.Tgn.w1c x4 (ix2 k j)))
        + (∑ k : Fin 64, x2 (ix2 e k) * Cert.Tgn.w1f x4 (ix2 k j)) := by
    refine (Cert.Tgn.sum_three (l := 128) (m := 128) (n := 64) _).trans ?_
    refine congrArg₂ (· + ·) (congrArg₂ (· + ·) ?_ ?_) ?_
    · refine Finset.sum_congr rfl fun k _ => ?_
      rw [lidx20_eq, ridx20_eq, v19_eq, v18_fst x1 x2 x3 hnn e k (Fin.castAdd 64 (Fin.castAdd 128 k)) rfl,
        w1a_at x4 k j (Fin.castAdd 64 (Fin.castAdd 128 k)) rfl]
    · refine Finset.sum_congr rfl fun k _ => ?_
      rw [lidx20_eq, ridx20_eq, v19_eq, v18_snd x1 x2 x3 hnn e k (Fin.castAdd 64 (Fin.natAdd 128 k)) rfl,
        w1c_at x4 k j (Fin.castAdd 64 (Fin.natAdd 128 k)) rfl]
    · refine Finset.sum_congr rfl fun k _ => ?_
      rw [lidx20_eq, ridx20_eq, v19_eq, v18_thd x1 x2 x3 e k (Fin.natAdd (128 + 128) k) rfl,
        w1f_at x4 k j (Fin.natAdd (128 + 128) k) rfl]
  rw [hS]
  rfl

/-- The message. -/
private theorem message_eq (hnn : ∀ i, 0 ≤ (x1 i).toInt) (e : Fin 500000) (j : Fin 128) :
    val_main_v30 (F := Ideal) x1 x2 x3 x4 x5 x6 x7 (ix2 e j) = Cert.Tgn.message (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) j := by
  rw [val_main_v30_apply, v29_at, val_main_v27_apply]
  have hS : (∑ k : Fin 128, val_main_v25 (F := Ideal) x1 x2 x3 x4 x5 (lidx_main_v27 (ix2 e j) k)
        * val_main_v26 (F := Ideal) x6 (ridx_main_v27 (ix2 e j) k))
      = ∑ k : Fin 128, Cert.Tgn.hidden (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) k * Cert.Tgn.w2t x6 (ix2 k j) :=
    Finset.sum_congr rfl fun k _ => by
      rw [lidx27_eq, ridx27_eq, v26_eq, hidden_eq x1 x2 x3 x4 x5 hnn e k]
  rw [hS]
  rfl

/-- The input part of the three gates, at a column of the 384. -/
private theorem gateIn_eq (hnn : ∀ i, 0 ≤ (x1 i).toInt) (e : Fin 500000) (q : Fin 384) :
    val_main_v42 (F := Ideal) x1 x2 x3 x4 x5 x6 x7 x8 x9 (ix2 e q) = Cert.Tgn.gateIn (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) (Cert.Tgn.mat (Cert.Tgn.wgt x8)) (Cert.Tgn.vec x9) q := by
  rw [val_main_v42_apply, v41_at, val_main_v39_apply]
  have hS : (∑ k : Fin 128, val_main_v30 (F := Ideal) x1 x2 x3 x4 x5 x6 x7 (lidx_main_v39 (ix2 e q) k)
        * val_main_v38 (F := Ideal) x8 (ridx_main_v39 (ix2 e q) k))
      = ∑ k : Fin 128, Cert.Tgn.message (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) k * Cert.Tgn.wgt x8 (ix2 k q) :=
    Finset.sum_congr rfl fun k _ => by
      rw [lidx39_eq, ridx39_eq, v38_eq, message_eq x1 x2 x3 x4 x5 x6 x7 hnn e k]
  rw [hS]
  rfl

/-- The hidden-state part of the three gates, at a column of the 384. -/
private theorem gateHid_eq (hnn : ∀ i, 0 ≤ (x1 i).toInt) (e : Fin 500000) (q : Fin 384) :
    val_main_v47 (F := Ideal) x1 x3 x10 x11 (ix2 e q) = Cert.Tgn.gateHid (Cert.Tgn.rowOf (Cert.Tgn.gatherRows x3 (Cert.Tgn.srcIdx x1)) e) (Cert.Tgn.mat (Cert.Tgn.wgt x10)) (Cert.Tgn.vec x11) q := by
  rw [val_main_v47_apply, v46_at, val_main_v44_apply]
  have hS : (∑ k : Fin 128, val_main_v37 (F := Ideal) x1 x3 (lidx_main_v44 (ix2 e q) k)
        * val_main_v43 (F := Ideal) x10 (ridx_main_v44 (ix2 e q) k))
      = ∑ k : Fin 128, Cert.Tgn.gatherRows x3 (Cert.Tgn.srcIdx x1) (ix2 e k) * Cert.Tgn.wgt x10 (ix2 k q) :=
    Finset.sum_congr rfl fun k _ => by
      rw [lidx44_eq, ridx44_eq, v43_eq, v37_eq x1 x3 hnn]
  rw [hS]
  rfl

/-- The reset gate: the sigmoid spelt out with the word of one is the logistic function. -/
private theorem reset_eq (hnn : ∀ i, 0 ≤ (x1 i).toInt) (e : Fin 500000) (j : Fin 128) :
    val_main_v60 (F := Ideal) x1 x2 x3 x4 x5 x6 x7 x8 x9 x10 x11 (ix2 e j) = Cert.Tgn.resetGate (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) (Cert.Tgn.mat (Cert.Tgn.wgt x8)) (Cert.Tgn.vec x9) (Cert.Tgn.mat (Cert.Tgn.wgt x10)) (Cert.Tgn.vec x11) j := by
  rw [val_main_v60_apply, val_main_v59_apply, val_main_cst_6_apply, val_main_v58_apply, val_main_v57_apply,
    val_main_cst_5_apply, val_main_v56_apply, val_main_v55_apply, val_main_v54_apply, val_main_v48_apply,
    val_main_v51_apply, idx48_eq, idx51_eq, gateIn_eq x1 x2 x3 x4 x5 x6 x7 x8 x9 hnn e (Cert.Tgn.col0 j),
    gateHid_eq x1 x3 x10 x11 hnn e (Cert.Tgn.col0 j)]
  exact sigmoid_eq _

/-- The update gate. -/
private theorem update_eq (hnn : ∀ i, 0 ≤ (x1 i).toInt) (e : Fin 500000) (j : Fin 128) :
    val_main_v67 (F := Ideal) x1 x2 x3 x4 x5 x6 x7 x8 x9 x10 x11 (ix2 e j) = Cert.Tgn.updateGate (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) (Cert.Tgn.mat (Cert.Tgn.wgt x8)) (Cert.Tgn.vec x9) (Cert.Tgn.mat (Cert.Tgn.wgt x10)) (Cert.Tgn.vec x11) j := by
  rw [val_main_v67_apply, val_main_v66_apply, val_main_cst_8_apply, val_main_v65_apply, val_main_v64_apply,
    val_main_cst_7_apply, val_main_v63_apply, val_main_v62_apply, val_main_v61_apply, val_main_v49_apply,
    val_main_v52_apply, idx49_eq, idx52_eq, gateIn_eq x1 x2 x3 x4 x5 x6 x7 x8 x9 hnn e (Cert.Tgn.col1 j),
    gateHid_eq x1 x3 x10 x11 hnn e (Cert.Tgn.col1 j)]
  exact sigmoid_eq _

/-- The candidate row. -/
private theorem cand_eq (hnn : ∀ i, 0 ≤ (x1 i).toInt) (e : Fin 500000) (j : Fin 128) :
    val_main_v70 (F := Ideal) x1 x2 x3 x4 x5 x6 x7 x8 x9 x10 x11 (ix2 e j) = Cert.Tgn.candidate (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) (Cert.Tgn.mat (Cert.Tgn.wgt x8)) (Cert.Tgn.vec x9) (Cert.Tgn.mat (Cert.Tgn.wgt x10)) (Cert.Tgn.vec x11) j := by
  rw [val_main_v70_apply, val_main_v69_apply, val_main_v68_apply, val_main_v50_apply, val_main_v53_apply,
    idx50_eq, idx53_eq, gateIn_eq x1 x2 x3 x4 x5 x6 x7 x8 x9 hnn e (Cert.Tgn.col2 j),
    gateHid_eq x1 x3 x10 x11 hnn e (Cert.Tgn.col2 j), reset_eq x1 x2 x3 x4 x5 x6 x7 x8 x9 x10 x11 hnn e j]
  rfl

/-- The new row of an edge. -/
private theorem newRow_eq (hnn : ∀ i, 0 ≤ (x1 i).toInt) (e : Fin 500000) (j : Fin 128) :
    val_main_v75 (F := Ideal) x1 x2 x3 x4 x5 x6 x7 x8 x9 x10 x11 (ix2 e j) = Cert.Tgn.newRow (Cert.Tgn.rowOf (Cert.Tgn.gatherRows x3 (Cert.Tgn.srcIdx x1)) e) (Cert.Tgn.rowOf (Cert.Tgn.gatherRows x3 (Cert.Tgn.dstIdx x1)) e) (Cert.Tgn.rowOf x2 e) (Cert.Tgn.mat (Cert.Tgn.w1a x4)) (Cert.Tgn.mat (Cert.Tgn.w1c x4)) (Cert.Tgn.mat (Cert.Tgn.w1f x4)) (Cert.Tgn.vec x5) (Cert.Tgn.mat (Cert.Tgn.w2t x6)) (Cert.Tgn.vec x7) (Cert.Tgn.mat (Cert.Tgn.wgt x8)) (Cert.Tgn.vec x9) (Cert.Tgn.mat (Cert.Tgn.wgt x10)) (Cert.Tgn.vec x11) j := by
  rw [val_main_v75_apply, val_main_v73_apply, val_main_v72_apply, val_main_v71_apply, val_main_cst_9_apply,
    val_main_v74_apply, update_eq x1 x2 x3 x4 x5 x6 x7 x8 x9 x10 x11 hnn e j, cand_eq x1 x2 x3 x4 x5 x6 x7 x8 x9 x10 x11 hnn e j, v37_eq x1 x3 hnn]
  rfl

end Stages

/-- Where every edge index is non-negative, the reference's new memory rows (its stage before the scatter) are the
    per-edge update of the rows gathered at the raw indices: wrapping a non-negative index changes nothing, and its
    one contraction over the 320 concatenated columns is the sum of the three contractions over the pieces. -/
theorem new_eq (x0 : FVec Ideal Cert.ReferenceIdeal.S100000x128 .f32) (x1 : IVec Cert.ReferenceIdeal.S2x500000 32)
    (x2 : FVec Ideal Cert.ReferenceIdeal.S500000x64 .f32) (x3 : FVec Ideal Cert.ReferenceIdeal.S100000x128 .f32)
    (x4 : FVec Ideal Cert.ReferenceIdeal.S128x320 .f32) (x5 : FVec Ideal Cert.ReferenceIdeal.S128 .f32)
    (x6 : FVec Ideal Cert.ReferenceIdeal.S128x128 .f32) (x7 : FVec Ideal Cert.ReferenceIdeal.S128 .f32)
    (x8 : FVec Ideal Cert.ReferenceIdeal.S384x128 .f32) (x9 : FVec Ideal Cert.ReferenceIdeal.S384 .f32)
    (x10 : FVec Ideal Cert.ReferenceIdeal.S384x128 .f32) (x11 : FVec Ideal Cert.ReferenceIdeal.S384 .f32)
    (x12 : FVec Ideal Cert.ReferenceIdeal.S128x256 .f32) (x13 : FVec Ideal Cert.ReferenceIdeal.S128 .f32)
    (hnn : ∀ i, 0 ≤ (x1 i).toInt) :
    val_main_v75 (F := Ideal) x1 x2 x3 x4 x5 x6 x7 x8 x9 x10 x11 = Cert.Tgn.newMem x1 x2 x3 x4 x5 x6 x7 x8 x9 x10 x11 := by
  funext i
  obtain ⟨e, j, rfl⟩ : ∃ (e : Fin 500000) (j : Fin 128), i = ix2 e j := ⟨i 0, i 1, eq_ix2 i⟩
  rw [newRow_eq x1 x2 x3 x4 x5 x6 x7 x8 x9 x10 x11 hnn e j]
  rfl

/-- The reference's updated memory: the same scatter of those rows at the same wrapped source indices. -/
theorem upd_eq (x0 : FVec Ideal Cert.ReferenceIdeal.S100000x128 .f32) (x1 : IVec Cert.ReferenceIdeal.S2x500000 32)
    (x2 : FVec Ideal Cert.ReferenceIdeal.S500000x64 .f32) (x3 : FVec Ideal Cert.ReferenceIdeal.S100000x128 .f32)
    (x4 : FVec Ideal Cert.ReferenceIdeal.S128x320 .f32) (x5 : FVec Ideal Cert.ReferenceIdeal.S128 .f32)
    (x6 : FVec Ideal Cert.ReferenceIdeal.S128x128 .f32) (x7 : FVec Ideal Cert.ReferenceIdeal.S128 .f32)
    (x8 : FVec Ideal Cert.ReferenceIdeal.S384x128 .f32) (x9 : FVec Ideal Cert.ReferenceIdeal.S384 .f32)
    (x10 : FVec Ideal Cert.ReferenceIdeal.S384x128 .f32) (x11 : FVec Ideal Cert.ReferenceIdeal.S384 .f32)
    (x12 : FVec Ideal Cert.ReferenceIdeal.S128x256 .f32) (x13 : FVec Ideal Cert.ReferenceIdeal.S128 .f32)
    (hnn : ∀ i, 0 ≤ (x1 i).toInt) :
    val_main_v82 (F := Ideal) x1 x2 x3 x4 x5 x6 x7 x8 x9 x10 x11 = Cert.Tgn.updMem x1 x2 x3 x4 x5 x6 x7 x8 x9 x10 x11 := by
  have h := new_eq x0 x1 x2 x3 x4 x5 x6 x7 x8 x9 x10 x11 x12 x13 hnn
  unfold val_main_v82 Cert.Tgn.updMem
  rw [h, v81_eq, scatter_rec_eq]

end Cert.Tgn.RefNew

end
-- ==== Proof.RefEmb.lean ====
import proofs.«403503_j74491912781913_3_alg».proof.Proof.RefRead
import proofs.«403503_j74491912781913_3_alg».proof.Proof.Terms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Tgn.RefEmb

open Idealize.ShloMosaic Idealize.ShloMosaic.ValueIdx Cert.ReferenceIdeal Cert.ReferenceIdeal.ReadP

/-! ## The concatenation of two 128-column arrays, read at a column of the 256 -/

/-- A column below 128 of the joined axis is that column of the first piece. -/
private theorem cat_low (u v : (⟨2, ![100000, 128]⟩ : Shape).Idx → EReal)
    (h : Shape.Concatenates [(⟨2, ![100000, 128]⟩ : Shape), ⟨2, ![100000, 128]⟩] ⟨2, ![100000, 256]⟩ 1)
    (e : Fin 100000) (k : Fin 128) (hk : k.val < 256) :
    concatenate ⟨2, ![100000, 256]⟩ 1 [⟨⟨2, ![100000, 128]⟩, u⟩, ⟨⟨2, ![100000, 128]⟩, v⟩] h (ix2 e ⟨k.val, hk⟩) = u (ix2 e k) :=
  concatenate_pair_apply_left 1 u v h (ix2 e ⟨k.val, hk⟩) rfl (ix2 e k)
    (fun b => by match b with | ⟨0, _⟩ => rfl | ⟨1, _⟩ => rfl)

/-- Column 128 + k of the joined axis is column k of the second piece. -/
private theorem cat_high (u v : (⟨2, ![100000, 128]⟩ : Shape).Idx → EReal)
    (h : Shape.Concatenates [(⟨2, ![100000, 128]⟩ : Shape), ⟨2, ![100000, 128]⟩] ⟨2, ![100000, 256]⟩ 1)
    (e : Fin 100000) (k : Fin 128) (hk : 128 + k.val < 256) :
    concatenate ⟨2, ![100000, 256]⟩ 1 [⟨⟨2, ![100000, 128]⟩, u⟩, ⟨⟨2, ![100000, 128]⟩, v⟩] h (ix2 e ⟨128 + k.val, hk⟩) = v (ix2 e k) :=
  concatenate_pair_apply_right 1 u v h (ix2 e ⟨128 + k.val, hk⟩) rfl rfl (ix2 e k)
    (fun b hb => by match b, hb with | ⟨0, _⟩, _ => rfl | ⟨1, _⟩, hb => exact absurd rfl hb)
    (by show k.val + 128 = 128 + k.val; omega)

/-! ## The two row pieces of the transposed weight, read at an index -/

/-- Row k (below 128) and column j of the transposed weight is the weight at row j, column k. -/
private theorem slice_transpose_low (W : (⟨2, ![128, 256]⟩ : Shape).Idx → EReal)
    (ht : (⟨2, ![128, 256]⟩ : Shape).Transposes [1, 0] ⟨2, ![256, 128]⟩)
    (hs : (⟨2, ![256, 128]⟩ : Shape).Slices ![0, 0] ⟨2, ![128, 128]⟩) (k j : Fin 128) (hk : k.val < 256) :
    extractStridedSlice ⟨2, ![128, 128]⟩ ![0, 0] (transpose ⟨2, ![256, 128]⟩ [1, 0] W ht) hs (ix2 k j) = W (ix2 j ⟨k.val, hk⟩) := by
  refine (extractStridedSlice_apply ![0, 0] _ hs (ix2 k j) (ix2 ⟨k.val, hk⟩ j) (fun a => by
    match a with
    | ⟨0, _⟩ => show k.val = 0 + k.val; omega
    | ⟨1, _⟩ => show j.val = 0 + j.val; omega)).trans ?_
  exact transpose_apply [1, 0] W ht (ix2 ⟨k.val, hk⟩ j) (ix2 j ⟨k.val, hk⟩) (fun b => by
    match b with
    | ⟨0, _⟩ => rfl
    | ⟨1, _⟩ => rfl)

/-- Row 128 + k and column j of the transposed weight is the weight at row j, column 128 + k. -/
private theorem slice_transpose_high (W : (⟨2, ![128, 256]⟩ : Shape).Idx → EReal)
    (ht : (⟨2, ![128, 256]⟩ : Shape).Transposes [1, 0] ⟨2, ![256, 128]⟩)
    (hs : (⟨2, ![256, 128]⟩ : Shape).Slices ![128, 0] ⟨2, ![128, 128]⟩) (k j : Fin 128) (hk : 128 + k.val < 256) :
    extractStridedSlice ⟨2, ![128, 128]⟩ ![128, 0] (transpose ⟨2, ![256, 128]⟩ [1, 0] W ht) hs (ix2 k j) = W (ix2 j ⟨128 + k.val, hk⟩) := by
  refine (extractStridedSlice_apply ![128, 0] _ hs (ix2 k j) (ix2 ⟨128 + k.val, hk⟩ j) (fun a => by
    match a with
    | ⟨0, _⟩ => show 128 + k.val = 128 + k.val; rfl
    | ⟨1, _⟩ => show j.val = 0 + j.val; omega)).trans ?_
  exact transpose_apply [1, 0] W ht (ix2 ⟨128 + k.val, hk⟩ j) (ix2 j ⟨128 + k.val, hk⟩) (fun b => by
    match b with
    | ⟨0, _⟩ => rfl
    | ⟨1, _⟩ => rfl)

/-- A sum over 256 terms is the sum of the first 128 plus the sum of the last 128. -/
private theorem sum256 (g : Fin 256 → EReal) :
    (∑ k, g k) = (∑ k : Fin 128, g ⟨k.val, by omega⟩) + (∑ k : Fin 128, g ⟨128 + k.val, by omega⟩) :=
  Cert.Tgn.sum_two (m := 128) (n := 128) g

variable [Cert.KernelIdeal.Facts] [Cert.ReferenceIdeal.Facts]

/-- The upper piece of the transposed embedding weight at row k, column j. -/
private theorem weu_apply (We : FVec Ideal S128x256 .f32) (k j : Fin 128) (hk : k.val < 256) :
    Cert.Tgn.weu We (ix2 k j) = We (ix2 j ⟨k.val, hk⟩) := by
  unfold Cert.Tgn.weu Cert.Tgn.wet
  exact slice_transpose_low We _ _ k j hk

/-- The lower piece of the transposed embedding weight at row k, column j. -/
private theorem wev_apply (We : FVec Ideal S128x256 .f32) (k j : Fin 128) (hk : 128 + k.val < 256) :
    Cert.Tgn.wev We (ix2 k j) = We (ix2 j ⟨128 + k.val, hk⟩) := by
  unfold Cert.Tgn.wev Cert.Tgn.wet
  exact slice_transpose_high We _ _ k j hk

/-- The contraction over the 256 joined columns against the weight, plus the bias, is the embedding row: over any
    two 128-column arrays `um` (first piece) and `nf` (second piece). -/
private theorem core (um nf : FVec Ideal S100000x128 .f32) (We : FVec Ideal S128x256 .f32) (be : FVec Ideal S128 .f32)
    (h : Shape.Concatenates [S100000x128, S100000x128] S100000x256 1) (e : Fin 100000) (j : Fin 128) :
    (∑ k : Fin 256, concatenate S100000x256 1 [⟨S100000x128, um⟩, ⟨S100000x128, nf⟩] h (lidx_main_v85 (ix2 e j) k)
        * We (idx_main_v84 (ridx_main_v85 (ix2 e j) k))) + be (idx_main_v86 (idx_main_v87 (ix2 e j)))
      = Cert.Tgn.embedRows (R := 100000) um nf (Cert.Tgn.weu We) (Cert.Tgn.wev We) be e j := by
  have hb : idx_main_v86 (idx_main_v87 (ix2 e j)) = ix1 j :=
    funext fun a => Fin.ext (by match a with | ⟨0, _⟩ => rfl)
  have hl : ∀ k : Fin 256, lidx_main_v85 (ix2 e j) k = ix2 e k := fun k =>
    funext fun a => Fin.ext (by match a with | ⟨0, _⟩ => rfl | ⟨1, _⟩ => rfl)
  have hr : ∀ k : Fin 256, idx_main_v84 (ridx_main_v85 (ix2 e j) k) = ix2 j k := fun k =>
    funext fun a => Fin.ext (by match a with | ⟨0, _⟩ => rfl | ⟨1, _⟩ => rfl)
  unfold Cert.Tgn.embedRows Cert.Tgn.embedRow
  rw [sum256, hb]
  refine congrArg₂ (· + ·) (congrArg₂ (· + ·) (Finset.sum_congr rfl fun k _ => ?_) (Finset.sum_congr rfl fun k _ => ?_)) rfl
  · rw [hl, hr]
    exact congrArg₂ (· * ·) (cat_low um nf h e k _) (weu_apply We k j _).symm
  · rw [hl, hr]
    exact congrArg₂ (· * ·) (cat_high um nf h e k _) (wev_apply We k j _).symm

/-- The reference's embeddings, index by index: its one contraction over the 256 concatenated columns (updated memory,
    then node features) against the transposed weight is the sum of the two contractions over the halves. -/
theorem emb_eq (x0 : FVec Ideal Cert.ReferenceIdeal.S100000x128 .f32) (x1 : IVec Cert.ReferenceIdeal.S2x500000 32)
    (x2 : FVec Ideal Cert.ReferenceIdeal.S500000x64 .f32) (x3 : FVec Ideal Cert.ReferenceIdeal.S100000x128 .f32)
    (x4 : FVec Ideal Cert.ReferenceIdeal.S128x320 .f32) (x5 : FVec Ideal Cert.ReferenceIdeal.S128 .f32)
    (x6 : FVec Ideal Cert.ReferenceIdeal.S128x128 .f32) (x7 : FVec Ideal Cert.ReferenceIdeal.S128 .f32)
    (x8 : FVec Ideal Cert.ReferenceIdeal.S384x128 .f32) (x9 : FVec Ideal Cert.ReferenceIdeal.S384 .f32)
    (x10 : FVec Ideal Cert.ReferenceIdeal.S384x128 .f32) (x11 : FVec Ideal Cert.ReferenceIdeal.S384 .f32)
    (x12 : FVec Ideal Cert.ReferenceIdeal.S128x256 .f32) (x13 : FVec Ideal Cert.ReferenceIdeal.S128 .f32) :
    val_main_v88 (F := Ideal) x0 x1 x2 x3 x4 x5 x6 x7 x8 x9 x10 x11 x12 x13
      = fun i => Cert.Tgn.embedRows (R := 100000) (val_main_v82 (F := Ideal) x1 x2 x3 x4 x5 x6 x7 x8 x9 x10 x11) x0
          (Cert.Tgn.weu x12) (Cert.Tgn.wev x12) x13 (i 0) (i 1) := by
  funext i
  obtain ⟨e, j, rfl⟩ : ∃ (e : Fin 100000) (j : Fin 128), i = ix2 e j := ⟨i 0, i 1, eq_ix2 i⟩
  rw [val_main_v88_apply, val_main_v85_apply, val_main_v87_apply, val_main_v86_apply]
  unfold val_main_v83
  generalize val_main_v82 (F := Ideal) x1 x2 x3 x4 x5 x6 x7 x8 x9 x10 x11 = um
  simp only [val_main_v84_apply]
  exact core um x0 x12 x13 _ e j

end Cert.Tgn.RefEmb

end
-- ==== Proof.lean ====
/-
  The claim: a temporal-graph-network step (per-edge message and gated update of the source node's memory, a scatter
  of the new rows, and a per-node embedding) computed by two pipelined kernels around host gathers and a host scatter
  equals its plain reference over the extended reals, wherever every float input is finite and every edge index is
  non-negative.

  The frames of the two kernel programs are the generated ones. The reference is a host program; its run names its two
  results as composed terms, and its frame is that run with the results dropped. The idealization rewrote nothing, so
  `preserves` is trivial. For `algebraic` both programs end with the same two arrays of the arguments (`Terms`):
  the kernel's buffers are read back through its host stretches and the two regions' write-backs (`KValue`, over the
  blocks-to-array steps `KEdge` / `KEmbed` and the bodies at an index `EdgePay` / `EmbedPay`); the reference's
  stages are read index by index (`RefNew`, `RefEmb`). The one place the two differ before that is the gather's
  index: the reference counts a negative index from the table's end while the kernel clamps it, and a non-negative
  index is left alone by both (`PreIdx` decodes that from the precondition). No finiteness is used: the
  contractions over concatenated columns split by commutativity and associativity of addition alone.
-/
import proofs.«403503_j74491912781913_3_alg».proof.Defs
import proofs.«403503_j74491912781913_3_alg».proof.Proof.Gen.Kernel
import proofs.«403503_j74491912781913_3_alg».proof.Proof.Gen.Kernel.Skeleton
import proofs.«403503_j74491912781913_3_alg».proof.Proof.Gen.Kernel.Launch
import proofs.«403503_j74491912781913_3_alg».proof.Proof.Gen.Kernel.Points
import proofs.«403503_j74491912781913_3_alg».proof.Proof.Gen.Kernel.Frame
import proofs.«403503_j74491912781913_3_alg».proof.Proof.Gen.KernelIdeal
import proofs.«403503_j74491912781913_3_alg».proof.Proof.Gen.KernelIdeal.Skeleton
import proofs.«403503_j74491912781913_3_alg».proof.Proof.Gen.KernelIdeal.Launch
import proofs.«403503_j74491912781913_3_alg».proof.Proof.Gen.KernelIdeal.Points
import proofs.«403503_j74491912781913_3_alg».proof.Proof.Gen.KernelIdeal.Frame
import proofs.«403503_j74491912781913_3_alg».proof.Proof.Gen.ReferenceIdeal
import proofs.«403503_j74491912781913_3_alg».proof.Proof.Gen.Pre_finite_inputs
import proofs.«403503_j74491912781913_3_alg».proof.Proof.RefRun
import proofs.«403503_j74491912781913_3_alg».proof.Proof.RefRead
import proofs.«403503_j74491912781913_3_alg».proof.Proof.PreIdx
import proofs.«403503_j74491912781913_3_alg».proof.Proof.EdgePay
import proofs.«403503_j74491912781913_3_alg».proof.Proof.EmbedPay
import proofs.«403503_j74491912781913_3_alg».proof.Proof.KRun
import proofs.«403503_j74491912781913_3_alg».proof.Proof.KValue
import proofs.«403503_j74491912781913_3_alg».proof.Proof.RefNew
import proofs.«403503_j74491912781913_3_alg».proof.Proof.RefEmb
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The reference's frame: its run, with the two results dropped. -/
theorem frame_ri : Cert.frame_ReferenceIdeal := fun m ρ _ =>
  (θ_run Cert.ReferenceIdeal.defs _ _).mono (fun _ h c => (h c).2.2) (Cert.ReferenceIdeal.RunP.run (F := Ideal) m ρ)

section Stages

variable (x0 : FVec Ideal Cert.ReferenceIdeal.S100000x128 .f32) (x1 : IVec Cert.ReferenceIdeal.S2x500000 32)
    (x2 : FVec Ideal Cert.ReferenceIdeal.S500000x64 .f32) (x3 : FVec Ideal Cert.ReferenceIdeal.S100000x128 .f32)
    (x4 : FVec Ideal Cert.ReferenceIdeal.S128x320 .f32) (x5 : FVec Ideal Cert.ReferenceIdeal.S128 .f32)
    (x6 : FVec Ideal Cert.ReferenceIdeal.S128x128 .f32) (x7 : FVec Ideal Cert.ReferenceIdeal.S128 .f32)
    (x8 : FVec Ideal Cert.ReferenceIdeal.S384x128 .f32) (x9 : FVec Ideal Cert.ReferenceIdeal.S384 .f32)
    (x10 : FVec Ideal Cert.ReferenceIdeal.S384x128 .f32) (x11 : FVec Ideal Cert.ReferenceIdeal.S384 .f32)
    (x12 : FVec Ideal Cert.ReferenceIdeal.S128x256 .f32) (x13 : FVec Ideal Cert.ReferenceIdeal.S128 .f32)
  (hnn : ∀ i, 0 ≤ (x1 i).toInt)

include hnn

/-- Over the argument arrays, wherever every edge index is non-negative: the reference's updated memory is `updMem`. -/
theorem ref_upd : Cert.ReferenceIdeal.ReadP.val_main_v82 (F := Ideal) x1 x2 x3 x4 x5 x6 x7 x8 x9 x10 x11 = Cert.Tgn.updMem x1 x2 x3 x4 x5 x6 x7 x8 x9 x10 x11 :=
  Cert.Tgn.RefNew.upd_eq x3 x1 x2 x3 x4 x5 x6 x7 x8 x9 x10 x11 (fun _ => 0) x5 hnn

/-- … and the reference's embeddings are `embedding`: its embedding stage over that updated memory. -/
theorem ref_emb : Cert.ReferenceIdeal.ReadP.val_main_v88 (F := Ideal) x0 x1 x2 x3 x4 x5 x6 x7 x8 x9 x10 x11 x12 x13 = Cert.Tgn.embedding x0 x1 x2 x3 x4 x5 x6 x7 x8 x9 x10 x11 x12 x13 := by
  rw [Cert.Tgn.RefEmb.emb_eq, Cert.Tgn.RefNew.upd_eq x0 x1 x2 x3 x4 x5 x6 x7 x8 x9 x10 x11 x12 x13 hnn]
  rfl

end Stages

-- each argument buffer's type is read off the programs' buffer tables where the stage lemmas meet the memory
set_option maxHeartbeats 4000000 in
/-- Both programs end with every node's embedding and the updated memory of `Terms`, as functions of the arguments. -/
theorem algebraic : Cert.algebraic_KernelIdeal_ReferenceIdeal := by
  intro m ρ m' ρ' hpre hagree
  refine ⟨fun c => Cert.Tgn.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Tgn.updMem (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Tgn.KValue.W7_v24 m ρ Cert.Tgn.EdgePay.out_apply Cert.Tgn.EmbedPay.out_apply c),
        (h c).2.1.trans (Cert.Tgn.KValue.W7_v23 m ρ Cert.Tgn.EdgePay.out_apply c), (h c).2.2⟩)
      (Cert.Tgn.KRun.run_results (F := Ideal) m ρ)
  · refine (θ_run Cert.ReferenceIdeal.defs _ _).mono (fun r h c => ?_) (Cert.ReferenceIdeal.RunP.run (F := Ideal) m' ρ')
    have hnn : ∀ i, 0 ≤ ((m ((c.tc : Thread Cert.KernelIdeal.nD Cert.KernelIdeal.τ).loc Cert.KernelIdeal.main_arg1)) i).toInt := fun i => Cert.Tgn.PreIdx.nonneg_of_fn _ _ _ _ _ _ _ _ _ _ _ _ _ _ (hpre c) i
    obtain ⟨a0, a1, a2, a3, a4, a5, a6, a7, a8, a9, a10, a11, a12, a13⟩ := hagree c
    refine ⟨?_, ?_, (h c).2.2⟩
    · rw [(h c).1, Cert.ReferenceIdeal.ReadP.val_main_v88_eq, a0, a1, a2, a3, a4, a5, a6, a7, a8, a9, a10, a11, a12, a13]
      exact ref_emb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) hnn
    · rw [(h c).2.1, Cert.ReferenceIdeal.ReadP.val_main_v82_eq, a1, a2, a3, a4, a5, a6, a7, a8, a9, a10, a11]
      exact ref_upd (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hnn

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
